-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2048x16x128 : Shape := ⟨3, ![2048, 16, 128]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S2048x16x128 : S_.BroadcastsInDim S2048x16x128 (![] : Fin 0 → Fin S2048x16x128.rank)
  reducesTo_S2048x16x128_S_d0_1_2 : S2048x16x128.ReducesTo [0, 1, 2] S_

variable [Facts]

def fn {F : FTy → Type} [FloatOps F] (main_arg0 : FVec F S2048x128 .f32) (main_arg1 : FVec F S2048x128 .f32) (main_arg2 : FVec F S2048x16x128 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S2048x16x128 .f32 := Host.absf main_arg2
  let main_cst_2 : FVec F S_ .f32 := constant S_ .f32 0x7F800000#32
  let main_v10 : FVec F S2048x16x128 .f32 := broadcastInDim S2048x16x128 ![] bcast_S_S2048x16x128 main_cst_2
  let main_v11 : IVec S2048x16x128 1 := cmpf .olt main_v9 main_v10
  let main_c_3 : IVec S_ 1 := constantI S_ 1 1#1
  let main_v12 : IVec S_ 1 := (fun x v => Host.reduce IntOp.andi x v reducesTo_S2048x16x128_S_d0_1_2 h_S_) main_v11 main_c_3
  let main_v13 : IVec S_ 1 := andi main_v8 main_v12
  main_v13
-- ==== Kernel.lean ====
abbrev S2048x128 : Shape := ⟨2, ![2048, 128]⟩
abbrev S2048x16x128 : Shape := ⟨3, ![2048, 16, 128]⟩
abbrev S32768x128 : Shape := ⟨2, ![32768, 128]⟩
abbrev S2048x1 : Shape := ⟨2, ![2048, 1]⟩
abbrev S512x128 : Shape := ⟨2, ![512, 128]⟩
abbrev S512x1 : Shape := ⟨2, ![512, 1]⟩
abbrev S512 : Shape := ⟨1, ![512]⟩
abbrev S2048 : Shape := ⟨1, ![2048]⟩
abbrev S1x2048 : Shape := ⟨2, ![1, 2048]⟩
abbrev S512x2048 : Shape := ⟨2, ![512, 2048]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1x4096 : Shape := ⟨2, ![1, 4096]⟩
abbrev S512x4096 : Shape := ⟨2, ![512, 4096]⟩
abbrev S1 : Shape := ⟨1, ![1]⟩
abbrev S_ : Shape := ⟨0, ![]⟩

abbrev nBuf : Space → Nat
  | .hbm => 21
  | .vmem => 10
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x16x128, .f32⟩
  | .hbm, ⟨3, _⟩ => ⟨S32768x128, .f32⟩
  | .hbm, ⟨4, _⟩ => ⟨S2048x1, .f32⟩
  | .hbm, ⟨5, _⟩ => ⟨S2048, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S512x1, .f32⟩
  | .local _ .vmem, ⟨4, _⟩ => ⟨S512x1, .f32⟩
  | .local _ .vmem, ⟨5, _⟩ => ⟨S512x128, .f32⟩
  | .local _ .vmem, ⟨6, _⟩ => ⟨S512x128, .f32⟩
  | .local _ .vmem, ⟨7, _⟩ => ⟨S4096x128, .f32⟩
  | .local _ .vmem, ⟨8, _⟩ => ⟨S4096x128, .f32⟩
  | .local _ .vmem, ⟨9, _⟩ => ⟨S1x1, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_call0_cst : Ref sig .tc := ⟨.hbm, 14, rfl⟩
abbrev main_call0_v0 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_cond1 (i : grid1.Coords) : BitVec 1 :=
  let arg0 : BitVec 32 := BitVec.ofNat 32 (i 0).val
  let c0_i32 : BitVec 32 := 0#32
  let v25 : BitVec 1 := Scalar.cmpi .eq arg0 c0_i32
  let arg1 : BitVec 32 := BitVec.ofNat 32 (i 1).val
  let c0_i32_9 : BitVec 32 := 0#32
  let v26 : BitVec 1 := Scalar.cmpi .eq arg1 c0_i32_9
  let v27 : BitVec 1 := Scalar.andi v25 v26
  let v28 : BitVec 32 := Scalar.extui v27
  let c0_i32_10 : BitVec 32 := 0#32
  let v29 : BitVec 1 := Scalar.cmpi .ne v28 c0_i32_10
  v29

def k1_cond2 (i : grid1.Coords) : BitVec 1 :=
  let arg0 : BitVec 32 := BitVec.ofNat 32 (i 0).val
  let c0_i32 : BitVec 32 := 0#32
  let v25 : BitVec 1 := Scalar.cmpi .eq arg0 c0_i32
  let arg1 : BitVec 32 := BitVec.ofNat 32 (i 1).val
  let c0_i32_9 : BitVec 32 := 0#32
  let v26 : BitVec 1 := Scalar.cmpi .eq arg1 c0_i32_9
  let v27 : BitVec 1 := Scalar.andi v25 v26
  let v_true : BitVec 1 := 1#1
  let v30 : BitVec 1 := Scalar.xori v27 v_true
  let v31 : BitVec 32 := Scalar.extui v30
  let c0_i32_11 : BitVec 32 := 0#32
  let v32 : BitVec 1 := Scalar.cmpi .ne v31 c0_i32_11
  v32

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

class Facts₀ : Prop where
  shapeCasts_S2048x16x128_S32768x128 : S2048x16x128.ShapeCasts S32768x128
  inb_S512x128_S512x128_0_0 : ∀ a, (![0, 0] : Fin 2 → Nat) a + S512x128.size a ≤ S512x128.size a
  h_S512x128 : 0 < S512x128.numel
  inb_S2048x128_S2048x128_0_0 : ∀ a, (![0, 0] : Fin 2 → Nat) a + S2048x128.size a ≤ S2048x128.size a
  h_S2048x128 : 0 < S2048x128.numel
  reduces_S512x128_S512 : S512x128.Reduces [1] S512
  shapeCasts_S512_S512x1 : S512.ShapeCasts S512x1
  reduces_S2048x128_S2048 : S2048x128.Reduces [1] S2048
  shapeCasts_S2048_S2048x1 : S2048.ShapeCasts S2048x1
  transposes_S2048x1_p1_0_S1x2048 : S2048x1.Transposes [1, 0] S1x2048
  bitsLt_bf16_f32 : FTy.bits .bf16 < FTy.bits .f32
  broadcasts_S512x1_S512x2048 : S512x1.Broadcasts S512x2048
  broadcasts_S1x2048_S512x2048 : S1x2048.Broadcasts S512x2048
  reduces_S512x2048_S512 : S512x2048.Reduces [1] S512
  inb_S512x1_S512x1_0_0 : ∀ a, (![0, 0] : Fin 2 → Nat) a + S512x1.size a ≤ S512x1.size a
  h_S512x1 : 0 < S512x1.numel
  shapeCasts_S2048x1_S2048 : S2048x1.ShapeCasts S2048
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  transposes_S4096x1_p1_0_S1x4096 : S4096x1.Transposes [1, 0] S1x4096
  broadcasts_S512x1_S512x4096 : S512x1.Broadcasts S512x4096
  broadcasts_S1x4096_S512x4096 : S1x4096.Broadcasts S512x4096
  reduces_S512x4096_S512 : S512x4096.Reduces [1] S512
  reduces_S512x1_S1 : S512x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  bcast_S_S2048 : S_.BroadcastsInDim S2048 (![] : Fin 0 → Fin S2048.rank)
  reducesTo_S2048_S_d0 : S2048.ReducesTo [0] S_
  h_S_ : 0 < S_.numel
  dot_S512x128_S2048x128_S512x2048_1_1_0_0_n_n_wf : DotDims.WF S512x128 S2048x128 S512x2048 [1] [1] [0] [0] [] []
  dot_S512x128_S4096x128_S512x4096_1_1_0_0_n_n_wf : DotDims.WF S512x128 S4096x128 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S2048x128.size a
  hwx0_0 : ∀ i : grid0.Coords, EltTy.bits .f32 = 32 ∨ (Rect.block (s := S2048x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x128.size a
  hwx0_1 : ∀ i : grid0.Coords, EltTy.bits .f32 = 32 ∨ (Rect.block (s := S2048x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S2048x1.size a
  hwx0_2 : ∀ i : grid0.Coords, EltTy.bits .f32 = 32 ∨ (Rect.block (s := S2048x1) S512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S2048x128.size a
  hwx1_0 : ∀ i : grid1.Coords, EltTy.bits .f32 = 32 ∨ (Rect.block (s := S2048x128) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S32768x128.size a
  hwx1_1 : ∀ i : grid1.Coords, EltTy.bits .f32 = 32 ∨ (Rect.block (s := S32768x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x128_S4096x128_S512x4096_1_1_0_0_n_n : DotDims S512x128 S4096x128 S512x4096 where
  lhsContracting := [1]
  rhsContracting := [1]
  lhsNonContracting := [0]
  rhsNonContracting := [0]
  lhsBatch := []
  rhsBatch := []
  wf := dot_S512x128_S4096x128_S512x4096_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond1 i == 1#1) && !(k1_cond2 i == 1#1) | ⟨_ + 3, h⟩ => absurd h (Nat.not_lt.2 (Nat.le_add_left _ _))

class Facts : Prop extends Facts₀ where

variable [Facts]
-- ==== ReferenceIdeal.lean ====
abbrev S2048x128 : Shape := ⟨2, ![2048, 128]⟩
abbrev S2048x16x128 : Shape := ⟨3, ![2048, 16, 128]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S128x2048 : Shape := ⟨2, ![128, 2048]⟩
abbrev S32768x128 : Shape := ⟨2, ![32768, 128]⟩
abbrev S32768 : Shape := ⟨1, ![32768]⟩
abbrev S1x32768 : Shape := ⟨2, ![1, 32768]⟩
abbrev S2048x32768 : Shape := ⟨2, ![2048, 32768]⟩
abbrev S128x32768 : Shape := ⟨2, ![128, 32768]⟩

abbrev nBuf : Space → Nat
  | .hbm => 62
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x16x128, .f32⟩
  | .hbm, ⟨3, _⟩ => ⟨S2048x128, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S2048x128, .f32⟩
  | .hbm, ⟨8, _⟩ => ⟨S_, .f32⟩
  | .hbm, ⟨9, _⟩ => ⟨S2048, .f32⟩
  | .hbm, ⟨10, _⟩ => ⟨S1x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S128x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S32768x128, .f32⟩
  | .hbm, ⟨27, _⟩ => ⟨S2048x128, .f32⟩
  | .hbm, ⟨28, _⟩ => ⟨S_, .f32⟩
  | .hbm, ⟨29, _⟩ => ⟨S2048, .f32⟩
  | .hbm, ⟨30, _⟩ => ⟨S2048x1, .f32⟩
  | .hbm, ⟨31, _⟩ => ⟨S32768x128, .f32⟩
  | .hbm, ⟨32, _⟩ => ⟨S_, .f32⟩
  | .hbm, ⟨33, _⟩ => ⟨S32768, .f32⟩
  | .hbm, ⟨34, _⟩ => ⟨S1x32768, .f32⟩
  | .hbm, ⟨35, _⟩ => ⟨S2048x32768, .f32⟩
  | .hbm, ⟨36, _⟩ => ⟨S2048x32768, .f32⟩
  | .hbm, ⟨37, _⟩ => ⟨S2048x32768, .f32⟩
  | .hbm, ⟨38, _⟩ => ⟨S128x32768, .f32⟩
  | .hbm, ⟨39, _⟩ => ⟨S2048x32768, .f32⟩
  | .hbm, ⟨40, _⟩ => ⟨S_, .f32⟩
  | .hbm, ⟨41, _⟩ => ⟨S2048x32768, .f32⟩
  | .hbm, ⟨42, _⟩ => ⟨S2048x32768, .f32⟩
  | .hbm, ⟨43, _⟩ => ⟨S2048x32768, .f32⟩
  | .hbm, ⟨44, _⟩ => ⟨S_, .f32⟩
  | .hbm, ⟨45, _⟩ => ⟨S2048x32768, .f32⟩
  | .hbm, ⟨46, _⟩ => ⟨S2048x32768, .f32⟩
  | .hbm, ⟨47, _⟩ => ⟨S2048x32768, .f32⟩
  | .hbm, ⟨48, _⟩ => ⟨S_, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S_, .f32⟩
  | .hbm, ⟨56, _⟩ => ⟨S2048, .f32⟩
  | .hbm, ⟨57, _⟩ => ⟨S2048, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_v40 : Ref sig .tc := ⟨.hbm, 54, rfl⟩
abbrev main_call0_cst : Ref sig .tc := ⟨.hbm, 55, rfl⟩
abbrev main_call0_v0 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩

abbrev nD : Nat := 1
abbrev τ : Topo := Topo.v7x

variable {F : FTy → Type} [FloatOps F]

class Facts₀ : Prop where
  reducesTo_S2048x128_S2048_d1 : S2048x128.ReducesTo [1] S2048
  h_S_ : 0 < S_.numel
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  transposes_S2048x128_S128x2048_1_0 : S2048x128.Transposes [1, 0] S128x2048
  bcast_S_S2048x2048 : S_.BroadcastsInDim S2048x2048 (![] : Fin 0 → Fin S2048x2048.rank)
  reducesTo_S2048x2048_S2048_d1 : S2048x2048.ReducesTo [1] S2048
  shapeCasts_S2048x16x128_S32768x128 : S2048x16x128.ShapeCasts S32768x128
  reducesTo_S32768x128_S32768_d1 : S32768x128.ReducesTo [1] S32768
  bcast_S32768_S1x32768_1 : S32768.BroadcastsInDim S1x32768 (![1] : Fin 1 → Fin S1x32768.rank)
  bcast_S2048x1_S2048x32768_0_1 : S2048x1.BroadcastsInDim S2048x32768 (![0, 1] : Fin 2 → Fin S2048x32768.rank)
  bcast_S1x32768_S2048x32768_0_1 : S1x32768.BroadcastsInDim S2048x32768 (![0, 1] : Fin 2 → Fin S2048x32768.rank)
  transposes_S32768x128_S128x32768_1_0 : S32768x128.Transposes [1, 0] S128x32768
  bcast_S_S2048x32768 : S_.BroadcastsInDim S2048x32768 (![] : Fin 0 → Fin S2048x32768.rank)
  reducesTo_S2048x32768_S_d0_1 : S2048x32768.ReducesTo [0, 1] S_
  bcast_S_S2048 : S_.BroadcastsInDim S2048 (![] : Fin 0 → Fin S2048.rank)
  reducesTo_S2048_S_d0 : S2048.ReducesTo [0] S_
  dot_S2048x128_S128x2048_S2048x2048_1_0_0_1_n_n_wf : DotDims.WF S2048x128 S128x2048 S2048x2048 [1] [0] [0] [1] [] []
  dot_S2048x128_S128x32768_S2048x32768_1_0_0_1_n_n_wf : DotDims.WF S2048x128 S128x32768 S2048x32768 [1] [0] [0] [1] [] []

variable [Facts₀]

def dot_S2048x128_S128x2048_S2048x2048_1_0_0_1_n_n : DotDims S2048x128 S128x2048 S2048x2048 where
  lhsContracting := [1]
  rhsContracting := [0]
  lhsNonContracting := [0]
  rhsNonContracting := [1]
  lhsBatch := []
  rhsBatch := []
  wf := dot_S2048x128_S128x2048_S2048x2048_1_0_0_1_n_n_wf
def dot_S2048x128_S128x32768_S2048x32768_1_0_0_1_n_n : DotDims S2048x128 S128x32768 S2048x32768 where
  lhsContracting := [1]
  rhsContracting := [0]
  lhsNonContracting := [0]
  rhsNonContracting := [1]
  lhsBatch := []
  rhsBatch := []
  wf := dot_S2048x128_S128x32768_S2048x32768_1_0_0_1_n_n_wf

class Facts : Prop extends Facts₀ where

variable [Facts]
-- ==== Proof.K.Reg0.lean ====
/-
  The first pallas_call (the hardest positive of every anchor), at any float instance and at any contents `V` of the
  core's buffers when the call is entered. Its grid has four points; point `t` reads rows `512·t … 512·t + 511` of the
  anchors and ALL 2048 rows of the positives (one block, the same at every point), and stores one column of 512 values,
  which is written back to rows `512·t …` of the result. The body reads its two input buffers whole and stores the
  output buffer whole, once, so after the body the output buffer is one function of the two input blocks.
-/
import proofs.«110653_j89103391523252_1_alg».proof.Proof.Gen.Kernel.Launch
import proofs.«110653_j89103391523252_1_alg».proof.Proof.Gen.Kernel.Skeleton
import proofs.«110653_j89103391523252_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The anchors' window holds its block at every point: it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The positives' window holds its one block at every point: fetched at the first point, and its block index never
    moves, so what the body leaves (it only reads) is still that block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev ra0 : Rect S512x128 := Rect.unit (s := S512x128) ![0, 0] S512x128.size inb_S512x128_S512x128_0_0
abbrev rp0 : Rect S2048x128 := Rect.unit (s := S2048x128) ![0, 0] S2048x128.size inb_S2048x128_S2048x128_0_0
abbrev ro0 : Rect S512x1 := Rect.unit (s := S512x1) ![0, 0] S512x1.size inb_S512x1_S512x1_0_0

/-- The output buffer after the body: its one store, of the column the body computes from the two blocks. -/
def out0_2 (x0 : Vec F S512x128 .f32) (x1 : Vec F S2048x128 .f32) : Vec F S512x1 .f32 :=
  View.canon [⟨ro0, k0_pay1 (View.ld x0 ra0) (View.ld x1 rp0)⟩]

/-- The one store covers the buffer. -/
theorem cover0_2 (p0 : Vec F S512x1 .f32) (y : S512x1.Idx) :
    ∃ pc ∈ ([⟨ro0, p0⟩] : List (View.Piece (Elt F) S512x1 .f32)), y ∈ pc.1.set :=
  View.cover_of_tiled [⟨ro0, p0⟩] S512x1.size (by rfl) y

/-! ## The body's triple -/

set_option maxHeartbeats 1000000 in
/-- The body on whole buffers, the inputs' at contents `x0`, `x1` and the output's at anything, runs to the
    continuation with the inputs' as they were and the output's at `out0_2 x0 x1`. -/
theorem sound_kernel0 (c : Dev nD) (E : Set ℕ) (i : grid0.Coords)
    (arg1 : Memref sig .tc .vmem S512x128 .f32) (harg1 : arg1.IsWhole) (arg2 : Memref sig .tc .vmem S2048x128 .f32) (harg2 : arg2.IsWhole)
    (arg3 : Memref sig .tc .vmem S512x1 .f32) (harg3 : arg3.IsWhole)
    (x0 : Vec F S512x128 .f32) (x1 : Vec F S2048x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__dpos_kernel i arg1 harg1 arg2 harg2 arg3 harg3) K := by
  simp only [cc0__dpos_kernel_eq_skeleton]; unfold cc0__dpos_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The call's proof data on core `c`: the arrays as the call finds them; after the body at point `t` each input
    buffer at its block and the output buffer at `out0_2` of the two blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  The second pallas_call (the hardest negative over every anchor and every negative), at any float instance and at any
  contents `V` of the core's buffers when the call is entered. Its grid is 8 × 4: point `t` reads the anchors' rows
  `512·(t mod 4) …` and the flattened negatives' rows `4096·(t div 4) …`, and its output is ONE 1×1 block, the same
  at every point, kept in its buffer from point to point and written back after the last one. The body computes the
  least clamped squared distance of its tile; at the first point it stores that, at every later point it stores the
  smaller of it and what the buffer held. So the buffer after point `n` is a recursion on `n`.
-/
import proofs.«110653_j89103391523252_1_alg».proof.Proof.Gen.Kernel.Launch
import proofs.«110653_j89103391523252_1_alg».proof.Proof.Gen.Kernel.Skeleton
import proofs.«110653_j89103391523252_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The anchors' window holds its block at every point (fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The negatives' window holds its block at every point: fetched when its block index moves (every fourth point),
    and in between the body, which only reads it, leaves the same block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body -/

/-- "This is the first point" holds at point 0 only, -/
theorem hcond1 : ∀ t : Fin cfg1.N, k1_cond1 (grid1.coords t) = 1#1 ↔ t.val = 0 :=
  (by decide +kernel : ∀ t : Fin grid1.N, k1_cond1 (grid1.coords t) = 1#1 ↔ t.val = 0)
/-- and "this is not the first point" at every other one. -/
theorem hcond2 : ∀ t : Fin cfg1.N, k1_cond2 (grid1.coords t) = 1#1 ↔ t.val ≠ 0 :=
  (by decide +kernel : ∀ t : Fin grid1.N, k1_cond2 (grid1.coords t) = 1#1 ↔ t.val ≠ 0)

/-- One of the two always holds (the second is the first's negation), so the output window is stored at every point. -/
theorem live1_2 (i : grid1.Coords) : idle1 2 i = false := by
  show (!(k1_cond1 i == 1#1) && !(k1_cond2 i == 1#1)) = false
  unfold k1_cond1 k1_cond2
  dsimp only
  generalize Scalar.andi (Scalar.cmpi .eq (BitVec.ofNat 32 (i 0).val) 0#32) (Scalar.cmpi .eq (BitVec.ofNat 32 (i 1).val) 0#32) = v
  revert v; decide

/-! ## The body's accesses: each buffer whole -/

abbrev ra1 : Rect S512x128 := Rect.unit (s := S512x128) ![0, 0] S512x128.size inb_S512x128_S512x128_0_0
abbrev rn1 : Rect S4096x128 := Rect.unit (s := S4096x128) ![0, 0] S4096x128.size inb_S4096x128_S4096x128_0_0
abbrev ro1 : Rect S1x1 := Rect.unit (s := S1x1) ![0, 0] S1x1.size inb_S1x1_S1x1_0_0

/-- The output buffer after the body at the first point: the tile's least value. -/
def out1_A (x0 : Vec F S512x128 .f32) (x1 : Vec F S4096x128 .f32) : Vec F S1x1 .f32 :=
  View.canon [⟨ro1, k1_pay1 (View.ld x0 ra1) (View.ld x1 rn1)⟩]

/-- The output buffer after the body at a later point, from what it held (`y`): the smaller of that and the tile's
    least value. -/
def out1_B (x0 : Vec F S512x128 .f32) (x1 : Vec F S4096x128 .f32) (y : Vec F S1x1 .f32) : Vec F S1x1 .f32 :=
  View.canon [⟨ro1, k1_pay2 (View.ld x0 ra1) (View.ld x1 rn1) (View.ld y ro1)⟩]

/-- The one store covers the buffer. -/
theorem cover1_2 (p0 : Vec F S1x1 .f32) (y : S1x1.Idx) :
    ∃ pc ∈ ([⟨ro1, p0⟩] : List (View.Piece (Elt F) S1x1 .f32)), y ∈ pc.1.set :=
  View.cover_of_tiled [⟨ro1, p0⟩] S1x1.size (by rfl) y

/-! ## The body's triple, case by case -/

set_option maxHeartbeats 1000000 in
/-- At the first point: the inputs' buffers at `x0`, `x1`, the output's at anything; the output's ends at `out1_A`. -/
theorem sound_kernel1_A (c : Dev nD) (E : Set ℕ) (i : grid1.Coords) (h1 : k1_cond1 i = 1#1) (h2 : ¬ k1_cond2 i = 1#1)
    (arg2 : Memref sig .tc .vmem S512x128 .f32) (harg2 : arg2.IsWhole) (arg3 : Memref sig .tc .vmem S4096x128 .f32) (harg3 : arg3.IsWhole)
    (arg4 : Memref sig .tc .vmem S1x1 .f32) (harg4 : arg4.IsWhole)
    (x0 : Vec F S512x128 .f32) (x1 : Vec F S4096x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_A x0 x1)) -∗ K ⟨⟩))
      ⊢ wp frame (wpE (defs₀ (F := F)) Variants.none c none) E (cc1__dneg_kernel i arg2 harg2 arg3 harg3 arg4 harg4) K := by
  simp only [cc1__dneg_kernel_eq_skeleton]; unfold cc1__dneg_kernel_skel
  unfold owns
  iintro ⟨⟨%f0, %hf0, H0⟩, ⟨%f1, %hf1, H1⟩, ⟨%d2, %f2, -, H2⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

set_option maxHeartbeats 1000000 in
/-- At a later point: the output's buffer at `y`; it ends at `out1_B … y`. -/
theorem sound_kernel1_B (c : Dev nD) (E : Set ℕ) (i : grid1.Coords) (h1 : ¬ k1_cond1 i = 1#1) (h2 : k1_cond2 i = 1#1)
    (arg2 : Memref sig .tc .vmem S512x128 .f32) (harg2 : arg2.IsWhole) (arg3 : Memref sig .tc .vmem S4096x128 .f32) (harg3 : arg3.IsWhole)
    (arg4 : Memref sig .tc .vmem S1x1 .f32) (harg4 : arg4.IsWhole)
    (x0 : Vec F S512x128 .f32) (x1 : Vec F S4096x128 .f32) (y : Vec F S1x1 .f32) (K : PUnit → sProp 𝕄) :
    iprop(owns (c : Thread nD τ) arg2 fullShare x0 ∗ owns (c : Thread nD τ) arg3 fullShare x1 ∗ owns (c : Thread nD τ) arg4 fullShare y
        ∗ (iprop(owns (c : Thread nD τ) arg2 fullShare x0 ∗ owns (c : Thread nD τ) arg3 fullShare x1
            ∗ owns (c : Thread nD τ) arg4 fullShare (out1_B x0 x1 y)) -∗ K ⟨⟩))
      ⊢ wp frame (wpE (defs₀ (F := F)) Variants.none c none) E (cc1__dneg_kernel i arg2 harg2 arg3 harg3 arg4 harg4) K := by
  simp only [cc1__dneg_kernel_eq_skeleton]; unfold cc1__dneg_kernel_skel
  unfold owns
  iintro ⟨⟨%f0, %hf0, H0⟩, ⟨%f1, %hf1, H1⟩, ⟨%f2, %hf2, H2⟩, Hk⟩
  subst hf0; subst hf1; subst hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## What the output buffer holds after each point -/

/-- The output buffer after the body at point `n`: at the first point the tile's least value, afterwards the smaller
    of the tile's and what point `n − 1` left. -/
def acc1 (c : Dev nD) : (n : ℕ) → n < cfg1.N → Vec F S1x1 .f32
  | 0, h => out1_A (iblk1 V c 0 ⟨0, h⟩) (iblk1 V c 1 ⟨0, h⟩)
  | n + 1, h => out1_B (iblk1 V c 0 ⟨n + 1, h⟩) (iblk1 V c 1 ⟨n + 1, h⟩) (acc1 c n (Nat.lt_of_succ_lt h))

theorem acc1_zero (c : Dev nD) (h : 0 < cfg1.N) :
    acc1 V c 0 h = out1_A (iblk1 V c 0 ⟨0, h⟩) (iblk1 V c 1 ⟨0, h⟩) := rfl
theorem acc1_succ (c : Dev nD) (n : ℕ) (h : n + 1 < cfg1.N) :
    acc1 V c (n + 1) h = out1_B (iblk1 V c 0 ⟨n + 1, h⟩) (iblk1 V c 1 ⟨n + 1, h⟩) (acc1 V c n (Nat.lt_of_succ_lt h)) := rfl

/-- The same two equations at a point `t` of the grid kept symbolic. -/
theorem acc1_at_zero (c : Dev nD) (t : Fin cfg1.N) (h0 : t.val = 0) :
    acc1 V c t.val t.isLt = out1_A (iblk1 V c 0 t) (iblk1 V c 1 t) := by
  obtain ⟨n, hn⟩ := t
  obtain rfl : n = 0 := h0
  rfl
theorem acc1_at_succ (c : Dev nD) (t : Fin cfg1.N) (h0 : t.val ≠ 0) :
    acc1 V c t.val t.isLt = out1_B (iblk1 V c 0 t) (iblk1 V c 1 t)
      (acc1 V c (t.val - 1) (Nat.lt_of_le_of_lt (Nat.sub_le _ _) t.isLt)) := by
  obtain ⟨n, hn⟩ := t
  obtain ⟨k, rfl⟩ : ∃ k, n = k + 1 := Nat.exists_eq_succ_of_ne_zero h0
  rfl

/-! ## The proof data -/

/-- The call's proof data on core `c`: the arrays as the call finds them; after the body at point `t` each input
    buffer at its block and the output buffer at `acc1` of the point; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At the first point the output buffer is fresh: it holds anything. -/
theorem before1_2_zero (c : Dev nD) (t : Fin cfg1.N) (h0 : t.val = 0) (d) : (dat1 V c).before 2 t d = d :=
  (dat1 V c).before_out_reset 2 rfl t (.inl h0) d

/-- The block is written back after the last point only, so at a later point the output buffer holds what the body
    left at the point before. -/
theorem before1_2_succ (c : Dev nD) (t : Fin cfg1.N) (h0 : t.val ≠ 0) (d) :
    (dat1 V c).before 2 t d = acc1 V c (t.val - 1) (Nat.lt_of_le_of_lt (Nat.sub_le _ _) t.isLt) := by
  have hN : cfg1.N = 32 := N_1
  have hfl : (cfg1.win 2).flush ⟨t.val - 1, Nat.lt_of_le_of_lt (Nat.sub_le _ _) t.isLt⟩ = false := by
    rw [Bool.eq_false_iff]; intro h
    have h' := (flush1_2 _).mp h
    have := t.isLt
    simp only at h'
    omega
  rw [(dat1 V c).before_out_kept 2 rfl t h0 hfl (live1_2) (fun _ _ => rfl) d, after1_2]

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val = 0
  · -- the first point
    have hc1 : k1_cond1 (grid1.coords t) = 1#1 := (hcond1 t).mpr h0
    have hc2 : ¬ k1_cond2 (grid1.coords t) = 1#1 := fun h => (hcond2 t).mp h h0
    simp only [before1_2_zero V c t h0]
    rw [acc1_at_zero V c t h0]
    iintro ⟨HΦ, Ho, ⟨%d0, H0⟩, ⟨%d1, H1⟩, ⟨%d2, H2⟩⟩
    iapply (sound_kernel1_A c Set.univ _ hc1 hc2 _ _ _ _ _ _ (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · -- a later point
    have hc1 : ¬ k1_cond1 (grid1.coords t) = 1#1 := fun h => h0 ((hcond1 t).mp h)
    have hc2 : k1_cond2 (grid1.coords t) = 1#1 := (hcond2 t).mpr h0
    simp only [before1_2_succ V c t h0]
    rw [acc1_at_succ V c t h0]
    iintro ⟨HΦ, Ho, ⟨%d0, H0⟩, ⟨%d1, H1⟩, ⟨%d2, H2⟩⟩
    iapply (sound_kernel1_B c Set.univ _ hc1 hc2 _ _ _ _ _ _ (iblk1 V c 0 t) (iblk1 V c 1 t)
      (acc1 V c (t.val - 1) (Nat.lt_of_le_of_lt (Nat.sub_le _ _) t.isLt)) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  -- the output window is stored at every point, so the obligation's case for an idle point is never met
  rw [show cfg1.idle 2 (cfg1.grid.coords t) = false from live1_2 _]
  exact sound_body1 V c t

end Cert.Kernel.Hand

end
-- ==== Proof.K.Outs.lean ====
/-
  The contents of the core's buffers when each of the two pallas_calls is entered, and what each leaves in its result
  array: the first call is entered after the first host stretch, the second after the first call and the second host
  stretch; a call's result array ends at what its write-backs leave.
-/
import proofs.«110653_j89103391523252_1_alg».proof.Proof.Gen.Kernel.Launch
import proofs.«110653_j89103391523252_1_alg».proof.Proof.Gen.Kernel.Skeleton
import proofs.«110653_j89103391523252_1_alg».proof.Proof.Gen.Kernel.Points
import proofs.«110653_j89103391523252_1_alg».proof.Proof.Gen.Kernel.Regions
import proofs.«110653_j89103391523252_1_alg».proof.Proof.K.Reg0
import proofs.«110653_j89103391523252_1_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the calls are entered with and what they leave -/

/-- The first call's entry contents: the launch memory after the first host stretch. -/
abbrev X1 (c : Dev nD) (b : Ref sig .tc) : Buf (Elt F) ((c : Thread nD τ).loc b) := V1 m c b

/-- What the first call leaves in its result array. -/
abbrev o2 (c : Dev nD) : Buf (Elt F) ((c : Thread nD τ).loc main_v1) := (dat0 (X1 m) c).arrAt 2 cfg0.N

/-- The unknowns of the conditional frame with only the first call's result named. -/
def outsA : Outs (F := F) := fun _ r c =>
  if h : r = main_v1 then h ▸ o2 m c else m ((c : Thread nD τ).loc r)

/-- The second call's entry contents: after the first call and the second host stretch. -/
abbrev X3 (c : Dev nD) (b : Ref sig .tc) : Buf (Elt F) ((c : Thread nD τ).loc b) := V3 m (outsA m) c b

/-- What the second call leaves in its result array. -/
abbrev o4 (c : Dev nD) : Buf (Elt F) ((c : Thread nD τ).loc main_v3) := (dat1 (X3 m) c).arrAt 2 cfg1.N

/-- The unknowns of the conditional frame: each call's result array at what its write-backs leave. -/
def outs : Outs (F := F) := fun _ r c =>
  if h : r = main_v1 then h ▸ o2 m c else if h' : r = main_v3 then h' ▸ o4 m c else m ((c : Thread nD τ).loc r)

theorem outsA_v1 (J : ℕ) (c : Dev nD) : outsA m J main_v1 c = o2 m c := by unfold outsA; rw [dif_pos rfl]
theorem outs_v1 (J : ℕ) (c : Dev nD) : outs m J main_v1 c = o2 m c := by unfold outs; rw [dif_pos rfl]
theorem outs_v3 (J : ℕ) (c : Dev nD) : outs m J main_v3 c = o4 m c := by
  unfold outs; rw [dif_neg (by decide), dif_pos rfl]

/-- Both families give the first call's result the same contents, so the buffers between the calls are the same. -/
theorem V2_outs (c : Dev nD) : V2 m (outs m) c = V2 m (outsA m) c := by
  simp only [V2, outs_v1, outsA_v1]
theorem V3_outs (c : Dev nD) : V3 m (outs m) c = V3 m (outsA m) c := by
  exact congrArg (StableHlo.after hostOps1) (V2_outs m c)

/-- The first call's exit contents, and the second's. -/
abbrev X2 (c : Dev nD) (b : Ref sig .tc) : Buf (Elt F) ((c : Thread nD τ).loc b) := V2 m (outs m) c b
abbrev X4 (c : Dev nD) (b : Ref sig .tc) : Buf (Elt F) ((c : Thread nD τ).loc b) := V4 m (outs m) c b

end Cert.Kernel.Hand

end
-- ==== Proof.K.Run.lean ====
/-
  The run of the whole program, at any float instance: between two items of @main core `c` holds every unscoped buffer
  at the contents the generated conditional frame names (the launch memory, then each host stretch applied, then
  what a call leaves in its result array), beside the core's generator register and an empty debt. Each pallas_call is
  entered by splitting its three arrays out of those buffers and left by putting them back, the result array at what the
  call's write-backs leave. From this the program's frame: every argument array ends as launched.
-/
import proofs.«110653_j89103391523252_1_alg».proof.Proof.Gen.Kernel.Launch
import proofs.«110653_j89103391523252_1_alg».proof.Proof.Gen.Kernel.Skeleton
import proofs.«110653_j89103391523252_1_alg».proof.Proof.Gen.Kernel.Points
import proofs.«110653_j89103391523252_1_alg».proof.Proof.Gen.Kernel.Regions
import proofs.«110653_j89103391523252_1_alg».proof.Proof.K.Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

/-- The prefetched tables' admissible contents: no call has a table (the generated module's). -/
abbrev admH : (p : Fin 2) → (pcfgs (F := F) p).Adm := adm

/-- Every call's proof data, each at its entry contents: a literal match on the call's number. -/
def pdats : (p : Fin 2) → (c : Dev nD) → Dat τ (Elt F) Unit ℕ (UR sig nD τ) ℕ (cfgs p) c
  | ⟨0, _⟩ => fun c => dat0 (X1 m) c
  | ⟨1, _⟩ => fun c => dat1 (X3 m) c

abbrev 𝒱₀ : Variants := Variants.none
/-- No core owes another anything: no level is assigned. -/
abbrev L : GSem nD τ sig → Finset Unit := fun _ => ∅
abbrev lv : GSem nD τ sig → Unit → ℕ := fun _ _ => 0

/-- Beside the buffers, through every item: the core's generator register at some state and an empty debt. -/
abbrev R (c : Dev nD) : sProp 𝕄 := iprop((∃ r, prngReg c r) ∗ ∃ W, owes (c : Thread nD τ) (0 : CellTallies nD τ sig Unit) W)

/-! ## What each call's arrays hold when it is left -/

/-- The first call: the two inputs as entered, the result at what the write-backs leave. -/
theorem hF0 (c : Dev nD) (w : Fin cfg0.W) : (dat0 (X1 m) c).arrAt w cfg0.N = X2 m c (Pipeline.arrRef spec0 w) := by
  match w with
  | ⟨0, _⟩ => exact ((dat0 (X1 m) c).arrAt_in 0 rfl _).trans ((A_eq0 (X1 m) c 0).trans (V2_of m (outs m) c main_arg0 (by decide)).symm)
  | ⟨1, _⟩ => exact ((dat0 (X1 m) c).arrAt_in 1 rfl _).trans ((A_eq0 (X1 m) c 1).trans (V2_of m (outs m) c main_arg1 (by decide)).symm)
  | ⟨2, _⟩ =>
    show o2 m c = Function.update (V1 m c) (Proc.devRef .tc main_v1) (outs m 2 main_v1 c) (Proc.devRef .tc main_v1)
    rw [Function.update_self, outs_v1]
/-- Every other buffer is as entered. -/
theorem hrest0 (c : Dev nD) : ∀ b, b ∉ Finset.univ.image (Pipeline.arrRef spec0) → X2 m c b = X1 m c b :=
  fun b hb => V2_of m (outs m) c b (by
    simp only [List.mem_singleton]
    intro e; exact hb (Finset.mem_image.mpr ⟨2, Finset.mem_univ _, e.symm⟩))

/-- The second call, likewise; its entry contents are those the conditional frame names. -/
theorem hF1 (c : Dev nD) (w : Fin cfg1.W) : (dat1 (X3 m) c).arrAt w cfg1.N = X4 m c (Pipeline.arrRef spec1 w) := by
  match w with
  | ⟨0, _⟩ => exact ((dat1 (X3 m) c).arrAt_in 0 rfl _).trans ((A_eq1 (X3 m) c 0).trans
      ((congrFun (V3_outs m c) (Proc.devRef .tc main_arg0)).symm.trans (V4_of m (outs m) c main_arg0 (by decide)).symm))
  | ⟨1, _⟩ => exact ((dat1 (X3 m) c).arrAt_in 1 rfl _).trans ((A_eq1 (X3 m) c 1).trans
      ((congrFun (V3_outs m c) (Proc.devRef .tc main_v0)).symm.trans (V4_of m (outs m) c main_v0 (by decide)).symm))
  | ⟨2, _⟩ =>
    show o4 m c = Function.update (V3 m (outs m) c) (Proc.devRef .tc main_v3) (outs m 4 main_v3 c) (Proc.devRef .tc main_v3)
    rw [Function.update_self, outs_v3]
theorem hrest1 (c : Dev nD) : ∀ b, b ∉ Finset.univ.image (Pipeline.arrRef spec1) → X4 m c b = X3 m c b :=
  fun b hb => (V4_of m (outs m) c b (by
    simp only [List.mem_singleton]
    intro e; exact hb (Finset.mem_image.mpr ⟨2, Finset.mem_univ _, e.symm⟩))).trans (congrFun (V3_outs m c) (Proc.devRef .tc b))

/-! ## The calls as segments -/

set_option backward.isDefEq.respectTransparency.types false in
/-- The first call, entered from every unscoped buffer at the contents after the first host stretch and left with
    its result array at what its write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (X1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call, entered from the contents after the second host stretch and left with its result array at
    what its one write-back leaves. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (X3 m) c).loose
  hwaits := Pipeline.hwaits_of_owed_zero _ _ _ _ L lv 1 fun _ _ => rfl
  pre c := iprop(StableHlo.held (c : Thread nD τ) (Pipeline.ucRefs τ sig) (V3 m (outsA m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (X3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (X3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (X3 m c) (X4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's resources, shared by the frame and the value run -/

/-- The launch element yields the pipeline library's ghost state and nothing else. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At the launch every core's register and empty debt are at hand. -/
theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  have hcore : ∀ c : Dev nD, (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄)
      ⊢ (R (F := F) c : sProp 𝕄) := fun c => by
    iintro ⟨-, HO, -, Hp, -⟩
    isplitl [Hp]; · iexists _; iexact Hp
    iexists ∅; iexact HO
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => R (F := F) c) : sProp 𝕄) :=
    bigSep_mono fun c _ => hcore c
  iintro ⟨H, -⟩
  ihave H' := hmono $$ H
  imodintro
  iexact H'

/-! ## The frame -/

set_option backward.isDefEq.respectTransparency.types false in
/-- Every weakly fair execution of the program terminates, nothing faulting, with each argument array as launched:
    the generated conditional frame at the two calls' records. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond m emb₁ () 𝒱₀ L lv (fun _ _ => rfl) ρ (outs m) (pdats m) 0 (fun _ => iprop(emp))
    (initOf (Pipeline.cells cfgs cellOf_inj) (Pipeline.launchToks cfgs cellOf_inj)) hu₀
    (fun _ c => R c) (hE0 ρ) (fun c => by iintro ⟨-, H⟩; iexact H)
    (reg0 m) (fun c => .rfl) (fun c => .rfl)
    (reg1 m) (fun c => by rw [V3_outs]; exact .rfl) (fun c => .rfl)

end Cert.Kernel.Hand

end
-- ==== Proof.KI.Reg0.lean ====
/-
  The first pallas_call (the hardest positive of every anchor), at any float instance and at any contents `V` of the
  core's buffers when the call is entered. Its grid has four points; point `t` reads rows `512·t … 512·t + 511` of the
  anchors and ALL 2048 rows of the positives (one block, the same at every point), and stores one column of 512 values,
  which is written back to rows `512·t …` of the result. The body reads its two input buffers whole and stores the
  output buffer whole, once, so after the body the output buffer is one function of the two input blocks.
-/
import proofs.«110653_j89103391523252_1_alg».proof.Proof.Gen.KernelIdeal.Launch
import proofs.«110653_j89103391523252_1_alg».proof.Proof.Gen.KernelIdeal.Skeleton
import proofs.«110653_j89103391523252_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The anchors' window holds its block at every point: it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The positives' window holds its one block at every point: fetched at the first point, and its block index never
    moves, so what the body leaves (it only reads) is still that block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev ra0 : Rect S512x128 := Rect.unit (s := S512x128) ![0, 0] S512x128.size inb_S512x128_S512x128_0_0
abbrev rp0 : Rect S2048x128 := Rect.unit (s := S2048x128) ![0, 0] S2048x128.size inb_S2048x128_S2048x128_0_0
abbrev ro0 : Rect S512x1 := Rect.unit (s := S512x1) ![0, 0] S512x1.size inb_S512x1_S512x1_0_0

/-- The output buffer after the body: its one store, of the column the body computes from the two blocks. -/
def out0_2 (x0 : Vec F S512x128 .f32) (x1 : Vec F S2048x128 .f32) : Vec F S512x1 .f32 :=
  View.canon [⟨ro0, k0_pay1 (View.ld x0 ra0) (View.ld x1 rp0)⟩]

/-- The one store covers the buffer. -/
theorem cover0_2 (p0 : Vec F S512x1 .f32) (y : S512x1.Idx) :
    ∃ pc ∈ ([⟨ro0, p0⟩] : List (View.Piece (Elt F) S512x1 .f32)), y ∈ pc.1.set :=
  View.cover_of_tiled [⟨ro0, p0⟩] S512x1.size (by rfl) y

/-! ## The body's triple -/

set_option maxHeartbeats 1000000 in
/-- The body on whole buffers, the inputs' at contents `x0`, `x1` and the output's at anything, runs to the
    continuation with the inputs' as they were and the output's at `out0_2 x0 x1`. -/
theorem sound_kernel0 (c : Dev nD) (E : Set ℕ) (i : grid0.Coords)
    (arg1 : Memref sig .tc .vmem S512x128 .f32) (harg1 : arg1.IsWhole) (arg2 : Memref sig .tc .vmem S2048x128 .f32) (harg2 : arg2.IsWhole)
    (arg3 : Memref sig .tc .vmem S512x1 .f32) (harg3 : arg3.IsWhole)
    (x0 : Vec F S512x128 .f32) (x1 : Vec F S2048x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__dpos_kernel i arg1 harg1 arg2 harg2 arg3 harg3) K := by
  simp only [cc0__dpos_kernel_eq_skeleton]; unfold cc0__dpos_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The call's proof data on core `c`: the arrays as the call finds them; after the body at point `t` each input
    buffer at its block and the output buffer at `out0_2` of the two blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The second pallas_call (the hardest negative over every anchor and every negative), at any float instance and at any
  contents `V` of the core's buffers when the call is entered. Its grid is 8 × 4: point `t` reads the anchors' rows
  `512·(t mod 4) …` and the flattened negatives' rows `4096·(t div 4) …`, and its output is ONE 1×1 block, the same
  at every point, kept in its buffer from point to point and written back after the last one. The body computes the
  least clamped squared distance of its tile; at the first point it stores that, at every later point it stores the
  smaller of it and what the buffer held. So the buffer after point `n` is a recursion on `n`.
-/
import proofs.«110653_j89103391523252_1_alg».proof.Proof.Gen.KernelIdeal.Launch
import proofs.«110653_j89103391523252_1_alg».proof.Proof.Gen.KernelIdeal.Skeleton
import proofs.«110653_j89103391523252_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The anchors' window holds its block at every point (fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The negatives' window holds its block at every point: fetched when its block index moves (every fourth point),
    and in between the body, which only reads it, leaves the same block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body -/

/-- "This is the first point" holds at point 0 only, -/
theorem hcond1 : ∀ t : Fin cfg1.N, k1_cond1 (grid1.coords t) = 1#1 ↔ t.val = 0 :=
  (by decide +kernel : ∀ t : Fin grid1.N, k1_cond1 (grid1.coords t) = 1#1 ↔ t.val = 0)
/-- and "this is not the first point" at every other one. -/
theorem hcond2 : ∀ t : Fin cfg1.N, k1_cond2 (grid1.coords t) = 1#1 ↔ t.val ≠ 0 :=
  (by decide +kernel : ∀ t : Fin grid1.N, k1_cond2 (grid1.coords t) = 1#1 ↔ t.val ≠ 0)

/-- One of the two always holds (the second is the first's negation), so the output window is stored at every point. -/
theorem live1_2 (i : grid1.Coords) : idle1 2 i = false := by
  show (!(k1_cond1 i == 1#1) && !(k1_cond2 i == 1#1)) = false
  unfold k1_cond1 k1_cond2
  dsimp only
  generalize Scalar.andi (Scalar.cmpi .eq (BitVec.ofNat 32 (i 0).val) 0#32) (Scalar.cmpi .eq (BitVec.ofNat 32 (i 1).val) 0#32) = v
  revert v; decide

/-! ## The body's accesses: each buffer whole -/

abbrev ra1 : Rect S512x128 := Rect.unit (s := S512x128) ![0, 0] S512x128.size inb_S512x128_S512x128_0_0
abbrev rn1 : Rect S4096x128 := Rect.unit (s := S4096x128) ![0, 0] S4096x128.size inb_S4096x128_S4096x128_0_0
abbrev ro1 : Rect S1x1 := Rect.unit (s := S1x1) ![0, 0] S1x1.size inb_S1x1_S1x1_0_0

/-- The output buffer after the body at the first point: the tile's least value. -/
def out1_A (x0 : Vec F S512x128 .f32) (x1 : Vec F S4096x128 .f32) : Vec F S1x1 .f32 :=
  View.canon [⟨ro1, k1_pay1 (View.ld x0 ra1) (View.ld x1 rn1)⟩]

/-- The output buffer after the body at a later point, from what it held (`y`): the smaller of that and the tile's
    least value. -/
def out1_B (x0 : Vec F S512x128 .f32) (x1 : Vec F S4096x128 .f32) (y : Vec F S1x1 .f32) : Vec F S1x1 .f32 :=
  View.canon [⟨ro1, k1_pay2 (View.ld x0 ra1) (View.ld x1 rn1) (View.ld y ro1)⟩]

/-- The one store covers the buffer. -/
theorem cover1_2 (p0 : Vec F S1x1 .f32) (y : S1x1.Idx) :
    ∃ pc ∈ ([⟨ro1, p0⟩] : List (View.Piece (Elt F) S1x1 .f32)), y ∈ pc.1.set :=
  View.cover_of_tiled [⟨ro1, p0⟩] S1x1.size (by rfl) y

/-! ## The body's triple, case by case -/

set_option maxHeartbeats 1000000 in
/-- At the first point: the inputs' buffers at `x0`, `x1`, the output's at anything; the output's ends at `out1_A`. -/
theorem sound_kernel1_A (c : Dev nD) (E : Set ℕ) (i : grid1.Coords) (h1 : k1_cond1 i = 1#1) (h2 : ¬ k1_cond2 i = 1#1)
    (arg2 : Memref sig .tc .vmem S512x128 .f32) (harg2 : arg2.IsWhole) (arg3 : Memref sig .tc .vmem S4096x128 .f32) (harg3 : arg3.IsWhole)
    (arg4 : Memref sig .tc .vmem S1x1 .f32) (harg4 : arg4.IsWhole)
    (x0 : Vec F S512x128 .f32) (x1 : Vec F S4096x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_A x0 x1)) -∗ K ⟨⟩))
      ⊢ wp frame (wpE (defs₀ (F := F)) Variants.none c none) E (cc1__dneg_kernel i arg2 harg2 arg3 harg3 arg4 harg4) K := by
  simp only [cc1__dneg_kernel_eq_skeleton]; unfold cc1__dneg_kernel_skel
  unfold owns
  iintro ⟨⟨%f0, %hf0, H0⟩, ⟨%f1, %hf1, H1⟩, ⟨%d2, %f2, -, H2⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

set_option maxHeartbeats 1000000 in
/-- At a later point: the output's buffer at `y`; it ends at `out1_B … y`. -/
theorem sound_kernel1_B (c : Dev nD) (E : Set ℕ) (i : grid1.Coords) (h1 : ¬ k1_cond1 i = 1#1) (h2 : k1_cond2 i = 1#1)
    (arg2 : Memref sig .tc .vmem S512x128 .f32) (harg2 : arg2.IsWhole) (arg3 : Memref sig .tc .vmem S4096x128 .f32) (harg3 : arg3.IsWhole)
    (arg4 : Memref sig .tc .vmem S1x1 .f32) (harg4 : arg4.IsWhole)
    (x0 : Vec F S512x128 .f32) (x1 : Vec F S4096x128 .f32) (y : Vec F S1x1 .f32) (K : PUnit → sProp 𝕄) :
    iprop(owns (c : Thread nD τ) arg2 fullShare x0 ∗ owns (c : Thread nD τ) arg3 fullShare x1 ∗ owns (c : Thread nD τ) arg4 fullShare y
        ∗ (iprop(owns (c : Thread nD τ) arg2 fullShare x0 ∗ owns (c : Thread nD τ) arg3 fullShare x1
            ∗ owns (c : Thread nD τ) arg4 fullShare (out1_B x0 x1 y)) -∗ K ⟨⟩))
      ⊢ wp frame (wpE (defs₀ (F := F)) Variants.none c none) E (cc1__dneg_kernel i arg2 harg2 arg3 harg3 arg4 harg4) K := by
  simp only [cc1__dneg_kernel_eq_skeleton]; unfold cc1__dneg_kernel_skel
  unfold owns
  iintro ⟨⟨%f0, %hf0, H0⟩, ⟨%f1, %hf1, H1⟩, ⟨%f2, %hf2, H2⟩, Hk⟩
  subst hf0; subst hf1; subst hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## What the output buffer holds after each point -/

/-- The output buffer after the body at point `n`: at the first point the tile's least value, afterwards the smaller
    of the tile's and what point `n − 1` left. -/
def acc1 (c : Dev nD) : (n : ℕ) → n < cfg1.N → Vec F S1x1 .f32
  | 0, h => out1_A (iblk1 V c 0 ⟨0, h⟩) (iblk1 V c 1 ⟨0, h⟩)
  | n + 1, h => out1_B (iblk1 V c 0 ⟨n + 1, h⟩) (iblk1 V c 1 ⟨n + 1, h⟩) (acc1 c n (Nat.lt_of_succ_lt h))

theorem acc1_zero (c : Dev nD) (h : 0 < cfg1.N) :
    acc1 V c 0 h = out1_A (iblk1 V c 0 ⟨0, h⟩) (iblk1 V c 1 ⟨0, h⟩) := rfl
theorem acc1_succ (c : Dev nD) (n : ℕ) (h : n + 1 < cfg1.N) :
    acc1 V c (n + 1) h = out1_B (iblk1 V c 0 ⟨n + 1, h⟩) (iblk1 V c 1 ⟨n + 1, h⟩) (acc1 V c n (Nat.lt_of_succ_lt h)) := rfl

/-- The same two equations at a point `t` of the grid kept symbolic. -/
theorem acc1_at_zero (c : Dev nD) (t : Fin cfg1.N) (h0 : t.val = 0) :
    acc1 V c t.val t.isLt = out1_A (iblk1 V c 0 t) (iblk1 V c 1 t) := by
  obtain ⟨n, hn⟩ := t
  obtain rfl : n = 0 := h0
  rfl
theorem acc1_at_succ (c : Dev nD) (t : Fin cfg1.N) (h0 : t.val ≠ 0) :
    acc1 V c t.val t.isLt = out1_B (iblk1 V c 0 t) (iblk1 V c 1 t)
      (acc1 V c (t.val - 1) (Nat.lt_of_le_of_lt (Nat.sub_le _ _) t.isLt)) := by
  obtain ⟨n, hn⟩ := t
  obtain ⟨k, rfl⟩ : ∃ k, n = k + 1 := Nat.exists_eq_succ_of_ne_zero h0
  rfl

/-! ## The proof data -/

/-- The call's proof data on core `c`: the arrays as the call finds them; after the body at point `t` each input
    buffer at its block and the output buffer at `acc1` of the point; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At the first point the output buffer is fresh: it holds anything. -/
theorem before1_2_zero (c : Dev nD) (t : Fin cfg1.N) (h0 : t.val = 0) (d) : (dat1 V c).before 2 t d = d :=
  (dat1 V c).before_out_reset 2 rfl t (.inl h0) d

/-- The block is written back after the last point only, so at a later point the output buffer holds what the body
    left at the point before. -/
theorem before1_2_succ (c : Dev nD) (t : Fin cfg1.N) (h0 : t.val ≠ 0) (d) :
    (dat1 V c).before 2 t d = acc1 V c (t.val - 1) (Nat.lt_of_le_of_lt (Nat.sub_le _ _) t.isLt) := by
  have hN : cfg1.N = 32 := N_1
  have hfl : (cfg1.win 2).flush ⟨t.val - 1, Nat.lt_of_le_of_lt (Nat.sub_le _ _) t.isLt⟩ = false := by
    rw [Bool.eq_false_iff]; intro h
    have h' := (flush1_2 _).mp h
    have := t.isLt
    simp only at h'
    omega
  rw [(dat1 V c).before_out_kept 2 rfl t h0 hfl (live1_2) (fun _ _ => rfl) d, after1_2]

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val = 0
  · -- the first point
    have hc1 : k1_cond1 (grid1.coords t) = 1#1 := (hcond1 t).mpr h0
    have hc2 : ¬ k1_cond2 (grid1.coords t) = 1#1 := fun h => (hcond2 t).mp h h0
    simp only [before1_2_zero V c t h0]
    rw [acc1_at_zero V c t h0]
    iintro ⟨HΦ, Ho, ⟨%d0, H0⟩, ⟨%d1, H1⟩, ⟨%d2, H2⟩⟩
    iapply (sound_kernel1_A c Set.univ _ hc1 hc2 _ _ _ _ _ _ (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · -- a later point
    have hc1 : ¬ k1_cond1 (grid1.coords t) = 1#1 := fun h => h0 ((hcond1 t).mp h)
    have hc2 : k1_cond2 (grid1.coords t) = 1#1 := (hcond2 t).mpr h0
    simp only [before1_2_succ V c t h0]
    rw [acc1_at_succ V c t h0]
    iintro ⟨HΦ, Ho, ⟨%d0, H0⟩, ⟨%d1, H1⟩, ⟨%d2, H2⟩⟩
    iapply (sound_kernel1_B c Set.univ _ hc1 hc2 _ _ _ _ _ _ (iblk1 V c 0 t) (iblk1 V c 1 t)
      (acc1 V c (t.val - 1) (Nat.lt_of_le_of_lt (Nat.sub_le _ _) t.isLt)) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  -- the output window is stored at every point, so the obligation's case for an idle point is never met
  rw [show cfg1.idle 2 (cfg1.grid.coords t) = false from live1_2 _]
  exact sound_body1 V c t

end Cert.KernelIdeal.Hand

end
-- ==== Proof.KI.Outs.lean ====
/-
  The contents of the core's buffers when each of the two pallas_calls is entered, and what each leaves in its result
  array: the first call is entered after the first host stretch, the second after the first call and the second host
  stretch; a call's result array ends at what its write-backs leave.
-/
import proofs.«110653_j89103391523252_1_alg».proof.Proof.Gen.KernelIdeal.Launch
import proofs.«110653_j89103391523252_1_alg».proof.Proof.Gen.KernelIdeal.Skeleton
import proofs.«110653_j89103391523252_1_alg».proof.Proof.Gen.KernelIdeal.Points
import proofs.«110653_j89103391523252_1_alg».proof.Proof.Gen.KernelIdeal.Regions
import proofs.«110653_j89103391523252_1_alg».proof.Proof.KI.Reg0
import proofs.«110653_j89103391523252_1_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the calls are entered with and what they leave -/

/-- The first call's entry contents: the launch memory after the first host stretch. -/
abbrev X1 (c : Dev nD) (b : Ref sig .tc) : Buf (Elt F) ((c : Thread nD τ).loc b) := V1 m c b

/-- What the first call leaves in its result array. -/
abbrev o2 (c : Dev nD) : Buf (Elt F) ((c : Thread nD τ).loc main_v1) := (dat0 (X1 m) c).arrAt 2 cfg0.N

/-- The unknowns of the conditional frame with only the first call's result named. -/
def outsA : Outs (F := F) := fun _ r c =>
  if h : r = main_v1 then h ▸ o2 m c else m ((c : Thread nD τ).loc r)

/-- The second call's entry contents: after the first call and the second host stretch. -/
abbrev X3 (c : Dev nD) (b : Ref sig .tc) : Buf (Elt F) ((c : Thread nD τ).loc b) := V3 m (outsA m) c b

/-- What the second call leaves in its result array. -/
abbrev o4 (c : Dev nD) : Buf (Elt F) ((c : Thread nD τ).loc main_v3) := (dat1 (X3 m) c).arrAt 2 cfg1.N

/-- The unknowns of the conditional frame: each call's result array at what its write-backs leave. -/
def outs : Outs (F := F) := fun _ r c =>
  if h : r = main_v1 then h ▸ o2 m c else if h' : r = main_v3 then h' ▸ o4 m c else m ((c : Thread nD τ).loc r)

theorem outsA_v1 (J : ℕ) (c : Dev nD) : outsA m J main_v1 c = o2 m c := by unfold outsA; rw [dif_pos rfl]
theorem outs_v1 (J : ℕ) (c : Dev nD) : outs m J main_v1 c = o2 m c := by unfold outs; rw [dif_pos rfl]
theorem outs_v3 (J : ℕ) (c : Dev nD) : outs m J main_v3 c = o4 m c := by
  unfold outs; rw [dif_neg (by decide), dif_pos rfl]

/-- Both families give the first call's result the same contents, so the buffers between the calls are the same. -/
theorem V2_outs (c : Dev nD) : V2 m (outs m) c = V2 m (outsA m) c := by
  simp only [V2, outs_v1, outsA_v1]
theorem V3_outs (c : Dev nD) : V3 m (outs m) c = V3 m (outsA m) c := by
  exact congrArg (StableHlo.after hostOps1) (V2_outs m c)

/-- The first call's exit contents, and the second's. -/
abbrev X2 (c : Dev nD) (b : Ref sig .tc) : Buf (Elt F) ((c : Thread nD τ).loc b) := V2 m (outs m) c b
abbrev X4 (c : Dev nD) (b : Ref sig .tc) : Buf (Elt F) ((c : Thread nD τ).loc b) := V4 m (outs m) c b

end Cert.KernelIdeal.Hand

end
-- ==== Proof.KI.Run.lean ====
/-
  The run of the whole program, at any float instance: between two items of @main core `c` holds every unscoped buffer
  at the contents the generated conditional frame names (the launch memory, then each host stretch applied, then
  what a call leaves in its result array), beside the core's generator register and an empty debt. Each pallas_call is
  entered by splitting its three arrays out of those buffers and left by putting them back, the result array at what the
  call's write-backs leave. From this the program's frame: every argument array ends as launched.
-/
import proofs.«110653_j89103391523252_1_alg».proof.Proof.Gen.KernelIdeal.Launch
import proofs.«110653_j89103391523252_1_alg».proof.Proof.Gen.KernelIdeal.Skeleton
import proofs.«110653_j89103391523252_1_alg».proof.Proof.Gen.KernelIdeal.Points
import proofs.«110653_j89103391523252_1_alg».proof.Proof.Gen.KernelIdeal.Regions
import proofs.«110653_j89103391523252_1_alg».proof.Proof.KI.Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides beside the buffers -/

/-- The prefetched tables' admissible contents: no call has a table (the generated module's). -/
abbrev admH : (p : Fin 2) → (pcfgs (F := F) p).Adm := adm

/-- Every call's proof data, each at its entry contents: a literal match on the call's number. -/
def pdats : (p : Fin 2) → (c : Dev nD) → Dat τ (Elt F) Unit ℕ (UR sig nD τ) ℕ (cfgs p) c
  | ⟨0, _⟩ => fun c => dat0 (X1 m) c
  | ⟨1, _⟩ => fun c => dat1 (X3 m) c

abbrev 𝒱₀ : Variants := Variants.none
/-- No core owes another anything: no level is assigned. -/
abbrev L : GSem nD τ sig → Finset Unit := fun _ => ∅
abbrev lv : GSem nD τ sig → Unit → ℕ := fun _ _ => 0

/-- Beside the buffers, through every item: the core's generator register at some state and an empty debt. -/
abbrev R (c : Dev nD) : sProp 𝕄 := iprop((∃ r, prngReg c r) ∗ ∃ W, owes (c : Thread nD τ) (0 : CellTallies nD τ sig Unit) W)

/-! ## What each call's arrays hold when it is left -/

/-- The first call: the two inputs as entered, the result at what the write-backs leave. -/
theorem hF0 (c : Dev nD) (w : Fin cfg0.W) : (dat0 (X1 m) c).arrAt w cfg0.N = X2 m c (Pipeline.arrRef spec0 w) := by
  match w with
  | ⟨0, _⟩ => exact ((dat0 (X1 m) c).arrAt_in 0 rfl _).trans ((A_eq0 (X1 m) c 0).trans (V2_of m (outs m) c main_arg0 (by decide)).symm)
  | ⟨1, _⟩ => exact ((dat0 (X1 m) c).arrAt_in 1 rfl _).trans ((A_eq0 (X1 m) c 1).trans (V2_of m (outs m) c main_arg1 (by decide)).symm)
  | ⟨2, _⟩ =>
    show o2 m c = Function.update (V1 m c) (Proc.devRef .tc main_v1) (outs m 2 main_v1 c) (Proc.devRef .tc main_v1)
    rw [Function.update_self, outs_v1]
/-- Every other buffer is as entered. -/
theorem hrest0 (c : Dev nD) : ∀ b, b ∉ Finset.univ.image (Pipeline.arrRef spec0) → X2 m c b = X1 m c b :=
  fun b hb => V2_of m (outs m) c b (by
    simp only [List.mem_singleton]
    intro e; exact hb (Finset.mem_image.mpr ⟨2, Finset.mem_univ _, e.symm⟩))

/-- The second call, likewise; its entry contents are those the conditional frame names. -/
theorem hF1 (c : Dev nD) (w : Fin cfg1.W) : (dat1 (X3 m) c).arrAt w cfg1.N = X4 m c (Pipeline.arrRef spec1 w) := by
  match w with
  | ⟨0, _⟩ => exact ((dat1 (X3 m) c).arrAt_in 0 rfl _).trans ((A_eq1 (X3 m) c 0).trans
      ((congrFun (V3_outs m c) (Proc.devRef .tc main_arg0)).symm.trans (V4_of m (outs m) c main_arg0 (by decide)).symm))
  | ⟨1, _⟩ => exact ((dat1 (X3 m) c).arrAt_in 1 rfl _).trans ((A_eq1 (X3 m) c 1).trans
      ((congrFun (V3_outs m c) (Proc.devRef .tc main_v0)).symm.trans (V4_of m (outs m) c main_v0 (by decide)).symm))
  | ⟨2, _⟩ =>
    show o4 m c = Function.update (V3 m (outs m) c) (Proc.devRef .tc main_v3) (outs m 4 main_v3 c) (Proc.devRef .tc main_v3)
    rw [Function.update_self, outs_v3]
theorem hrest1 (c : Dev nD) : ∀ b, b ∉ Finset.univ.image (Pipeline.arrRef spec1) → X4 m c b = X3 m c b :=
  fun b hb => (V4_of m (outs m) c b (by
    simp only [List.mem_singleton]
    intro e; exact hb (Finset.mem_image.mpr ⟨2, Finset.mem_univ _, e.symm⟩))).trans (congrFun (V3_outs m c) (Proc.devRef .tc b))

/-! ## The calls as segments -/

set_option backward.isDefEq.respectTransparency.types false in
/-- The first call, entered from every unscoped buffer at the contents after the first host stretch and left with
    its result array at what its write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (X1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call, entered from the contents after the second host stretch and left with its result array at
    what its one write-back leaves. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (X3 m) c).loose
  hwaits := Pipeline.hwaits_of_owed_zero _ _ _ _ L lv 1 fun _ _ => rfl
  pre c := iprop(StableHlo.held (c : Thread nD τ) (Pipeline.ucRefs τ sig) (V3 m (outsA m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (X3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (X3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (X3 m c) (X4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's resources, shared by the frame and the value run -/

/-- The launch element yields the pipeline library's ghost state and nothing else. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At the launch every core's register and empty debt are at hand. -/
theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  have hcore : ∀ c : Dev nD, (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄)
      ⊢ (R (F := F) c : sProp 𝕄) := fun c => by
    iintro ⟨-, HO, -, Hp, -⟩
    isplitl [Hp]; · iexists _; iexact Hp
    iexists ∅; iexact HO
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => R (F := F) c) : sProp 𝕄) :=
    bigSep_mono fun c _ => hcore c
  iintro ⟨H, -⟩
  ihave H' := hmono $$ H
  imodintro
  iexact H'

/-! ## The frame -/

set_option backward.isDefEq.respectTransparency.types false in
/-- Every weakly fair execution of the program terminates, nothing faulting, with each argument array as launched:
    the generated conditional frame at the two calls' records. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond m emb₁ () 𝒱₀ L lv (fun _ _ => rfl) ρ (outs m) (pdats m) 0 (fun _ => iprop(emp))
    (initOf (Pipeline.cells cfgs cellOf_inj) (Pipeline.launchToks cfgs cellOf_inj)) hu₀
    (fun _ c => R c) (hE0 ρ) (fun c => by iintro ⟨-, H⟩; iexact H)
    (reg0 m) (fun c => .rfl) (fun c => .rfl)
    (reg1 m) (fun c => by rw [V3_outs]; exact .rfl) (fun c => .rfl)

end Cert.KernelIdeal.Hand

end
-- ==== Proof.KI.RunAll.lean ====
/-
  The run of the whole program with its RESULT named: every weakly fair execution terminates, nothing faulting, and
  the final memory holds, beside each argument array as launched, the result buffer at the last of the contents the
  conditional frame names — the host tail applied to what the two pallas_calls leave.
-/
import proofs.«110653_j89103391523252_1_alg».proof.Proof.Gen.KernelIdeal.Launch
import proofs.«110653_j89103391523252_1_alg».proof.Proof.Gen.KernelIdeal.Skeleton
import proofs.«110653_j89103391523252_1_alg».proof.Proof.Gen.KernelIdeal.Points
import proofs.«110653_j89103391523252_1_alg».proof.Proof.Gen.KernelIdeal.Regions
import proofs.«110653_j89103391523252_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

set_option backward.isDefEq.respectTransparency.types false in
/-- The launch over @main's seven items — three host stretches around and after the two calls — from every unscoped
    buffer at the launch memory to every unscoped buffer at the last contents, which the final memory then reads. -/
theorem run_all : θ_run defs (onTc (τ := τ) (main (F := F))) ⟨m, fun _ => 0, ρ⟩ (fun r => ∀ c : Dev nD,
      r.2.mem ((c.tc : Thread nD τ).loc main_v12) = V7 m (outs m) c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  -- the second call is entered from the contents the conditional frame names after the second host stretch
  have hpre1 : ∀ c : Dev nD, iprop(StableHlo.held (c : Thread nD τ) (Pipeline.ucRefs τ sig) (V3 m (outs m) c) ∗ R c) ⊢ (reg1 m).pre c :=
    fun c => by rw [V3_outs]; exact .rfl
  -- a conjunction over the cores of two things is the two conjunctions over the cores
  have hjoin : (iprop((bigSep Finset.univ fun c : Dev nD => StableHlo.held (c : Thread nD τ) (Pipeline.ucRefs τ sig) (V0 m c))
        ∗ bigSep Finset.univ fun c : Dev nD => R (F := F) c) : sProp 𝕄)
      ⊢ (bigSep Finset.univ fun c : Dev nD => iprop(StableHlo.held (c : Thread nD τ) (Pipeline.ucRefs τ sig) (V0 m c) ∗ R c) : sProp 𝕄) := by
    rw [← bigSep_sep']
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m))
    (fun c Q => by
      rewrite [main_chain c, Seg.run_eq_chain,
        show (segs m (outs m) 𝒱₀ L lv (fun _ c => R c) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (V0 m c) ∗ R c))
    (Tₙ := fun c => StableHlo.held (c : Thread nD τ) (Pipeline.ucRefs τ sig) (V7 m (outs m) c))
    (hch := fun c => ⟨.rfl, .rfl, .rfl, hpre1 c, .rfl, .rfl, .rfl,
      sep_mono .rfl (by iintro ⟨-, H⟩; iexact H)⟩)
    (hinit := ?_)
    (QY := fun c s => s.mem ((c.tc : Thread nD τ).loc main_v12) = V7 m (outs m) c main_v12
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  · -- the launch: the unscoped buffers are held at the launch memory; the rest makes the register and the empty debt
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    iapply hjoin
    isplitl [Hh]; · iexact Hh
    iexact HE
  · -- the end: the result and each argument read off the last contents
    unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro
      exact ⟨h (Proc.devRef .tc main_v12) (Finset.mem_filter.mpr ⟨StableHlo.devRef_mem_tcRefs main_v12, by decide⟩),
        (h (Proc.devRef .tc main_arg0) (Finset.mem_filter.mpr ⟨StableHlo.devRef_mem_tcRefs main_arg0, by decide⟩)).trans (V7_main_arg0 m (outs m) c),
        (h (Proc.devRef .tc main_arg1) (Finset.mem_filter.mpr ⟨StableHlo.devRef_mem_tcRefs main_arg1, by decide⟩)).trans (V7_main_arg1 m (outs m) c),
        (h (Proc.devRef .tc main_arg2) (Finset.mem_filter.mpr ⟨StableHlo.devRef_mem_tcRefs main_arg2, by decide⟩)).trans (V7_main_arg2 m (outs m) c)⟩
    · iexact HSI

end Cert.KernelIdeal.Hand

end
-- ==== Proof.Spec.lean ====
/-
  The mathematics both programs compute, over matrices of extended reals with 128 columns.

  For a row `r` of `x` and a row `q` of `y` the clamped squared distance is
  `max (|x_r|² + |y_q|² − 2·⟨x_r, y_q⟩) 0`; the hardest positive of row `r` is the largest `√` of it over the rows of
  `y`, and the hardest negative is the least of it over every pair of rows. The square root is monotone on the
  extended reals and fixes `+∞`, so the root of a least value is the least root: the one law that joins a kernel
  which takes the root after the minimum to a reference which takes it before.
-/
import Idealize.ShloMosaic.PureOps.Ideal
import Idealize.ShloMosaic.PureOps.Ideal.Laws
import Idealize.ShloMosaic.Lib.ValueIdx
import Mathlib.Data.Finset.Fold
import Mathlib.Analysis.Real.Sqrt
import Mathlib.Data.EReal.Basic

noncomputable section

namespace Cert.Spec

open Idealize.ShloMosaic Idealize.ShloMosaic.ValueIdx

/-- `R` rows of 128 extended reals. -/
abbrev Mat (R : ℕ) : Type := FVec Ideal (⟨2, ![R, 128]⟩ : Shape) .f32

/-- The squared length of row `r`. -/
def sqn {R : ℕ} (x : Mat R) (r : Fin R) : EReal := ∑ k : Fin 128, x (ix2 r k) * x (ix2 r k)

/-- The inner product of row `r` of `x` with row `q` of `y`. -/
def dot {R C : ℕ} (x : Mat R) (y : Mat C) (r : Fin R) (q : Fin C) : EReal := ∑ k : Fin 128, x (ix2 r k) * y (ix2 q k)

/-- The squared distance between the two rows by the polarisation identity, clamped below at zero; the factor two
    and the zero are the words both programs print. -/
def sqd {R C : ℕ} (x : Mat R) (y : Mat C) (r : Fin R) (q : Fin C) : EReal :=
  max ((sqn x r + sqn y q) - Ideal.ofBits .f32 0x40000000#32 * dot x y r q) (Ideal.ofBits .f32 0x00000000#32)

/-- The value a maximum starts from. -/
abbrev negInf : EReal := Ideal.ofBits .f32 0xFF800000#32
/-- The value a minimum starts from. -/
abbrev posInf : EReal := Ideal.ofBits .f32 0x7F800000#32

/-- The largest distance from row `r` of `x` to a row of `y`. -/
def rowMax {R C : ℕ} (x : Mat R) (y : Mat C) (r : Fin R) : EReal :=
  (Finset.univ : Finset (Fin C)).fold max negInf fun q => Ideal.sqrt (sqd x y r q)

/-- The least clamped squared distance over every pair of rows, row by row. -/
def allMin {R C : ℕ} (x : Mat R) (y : Mat C) : EReal :=
  (Finset.univ : Finset (Fin R)).fold min posInf fun r => (Finset.univ : Finset (Fin C)).fold min posInf fun q => sqd x y r q

/-- The least distance over every pair of rows, row by row. -/
def allMinRoot {R C : ℕ} (x : Mat R) (y : Mat C) : EReal :=
  (Finset.univ : Finset (Fin R)).fold min posInf fun r => (Finset.univ : Finset (Fin C)).fold min posInf fun q => Ideal.sqrt (sqd x y r q)

/-- The word a minimum starts from is `+∞`. -/
theorem posInf_eq : posInf = ⊤ := by
  simp [posInf, Ideal.ofBits, Ideal.ieee]

/-- The square root is monotone on the extended reals. -/
theorem sqrt_mono : Monotone Ideal.sqrt := by
  intro a b hab
  induction a using EReal.rec with
  | bot => simp
  | top =>
    have hb : b = ⊤ := top_le_iff.mp hab
    subst hb; exact le_rfl
  | coe r =>
    induction b using EReal.rec with
    | bot => simp at hab
    | top => simp
    | coe s =>
      have hrs : r ≤ s := EReal.coe_le_coe_iff.mp hab
      simp only [Ideal.sqrt_coe]
      by_cases hr : r < 0
      · simp [hr]
      · have hs : ¬ s < 0 := fun h => hr (lt_of_le_of_lt hrs h)
        simp only [hr, hs, if_false]
        exact EReal.coe_le_coe_iff.mpr (Real.sqrt_le_sqrt hrs)

/-- The root of a least value is the least root. -/
theorem sqrt_fold_min {ι : Type} (s : Finset ι) (f : ι → EReal) :
    Ideal.sqrt (s.fold min posInf f) = s.fold min posInf fun i => Ideal.sqrt (f i) := by
  have h := Finset.fold_hom (op := min) (op' := min) (b := posInf) (f := f) (s := s) (m := Ideal.sqrt)
    (fun x y => sqrt_mono.map_min)
  have htop : Ideal.sqrt posInf = posInf := by rw [posInf_eq]; rfl
  rw [htop] at h
  exact h.symm

/-- So the root of the least clamped squared distance is the least distance. -/
theorem sqrt_allMin {R C : ℕ} (x : Mat R) (y : Mat C) : Ideal.sqrt (allMin x y) = allMinRoot x y := by
  unfold allMin allMinRoot
  rw [sqrt_fold_min]
  refine Finset.fold_congr ?_
  intro r _
  exact sqrt_fold_min _ _

end Cert.Spec

end
-- ==== Proof.LibDotNT.lean ====
/-
  A two-dimensional matrix product against a transposed right operand, read at an entry.

  For a dot whose dimension numbers are those of `rows × contraction` times `columns × contraction` — left
  contracting axis 1, right contracting axis 1, the remaining left axis then the remaining right axis as the result's
  axes, no batch axis — the left operand's index at result entry `(p, q)` and contraction position `k` is `(p, k)`,
  the right operand's is `(q, k)`. So, on the extended reals, a kernel's `matmul` into the zero accumulator and a
  host `dot_general` are both the sum `∑ k, l (p, k) * r (q, k)` over `k : Fin K`: the inner product of row `p` of
  the left operand with row `q` of the right one.

  The dimension record is a variable; its printed fields enter as hypotheses (each is `rfl` for a printed record).
-/
import Idealize.ShloMosaic.PureOps.Ideal
import Idealize.ShloMosaic.PureOps.Ideal.Laws
import Idealize.ShloMosaic.Lib.ValueIdx

noncomputable section

namespace Cert.DotNT

open Idealize.ShloMosaic Idealize.ShloMosaic.ValueIdx

variable {R K C : ℕ} (d : DotDims (⟨2, ![R, K]⟩ : Shape) (⟨2, ![C, K]⟩ : Shape) (⟨2, ![R, C]⟩ : Shape))

/-- A coordinate of an index depends only on the axis' position. -/
private theorem coord_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hlb : d.lhsBatch = []) (hln : d.lhsNonContracting = [0])
    (j : (⟨2, ![R, C]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The left operand's column is the contraction position. -/
theorem lhs_col (hlc : d.lhsContracting = [1]) (j : (⟨2, ![R, C]⟩ : Shape).Idx) (k : d.contr.Idx) :
    (d.lhsIdx j k 1).val = (k ⟨0, by rw [d.rank_contr, hlc]; exact Nat.one_pos⟩).val :=
  d.lhsIdx_val_of_single hlc j k

/-- The right operand's row is the result's column. -/
theorem rhs_row (hlb : d.lhsBatch = []) (hrb : d.rhsBatch = []) (hln : d.lhsNonContracting = [0]) (hrn : d.rhsNonContracting = [0])
    (j : (⟨2, ![R, C]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The right operand's column is the contraction position. -/
theorem rhs_col (hrc : d.rhsContracting = [1]) (j : (⟨2, ![R, C]⟩ : Shape).Idx) (k : d.contr.Idx) :
    (d.rhsIdx j k 1).val = (k ⟨0, by rw [d.rank_contr, ← d.length_contracting, hrc]; exact Nat.one_pos⟩).val :=
  d.rhsIdx_val_of_single hrc j k

/-- The contraction shape has one axis, of extent `K`. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  rw [d.size_contr 0 (by rw [hlc]; exact Nat.one_pos)]
  simp [hlc]

/-- THE SUM over the dot's own contraction index, re-indexed by `k : Fin K` with the operands read at `(p, k)` and `(q, k)`. -/
theorem sum_contr (hlc : d.lhsContracting = [1]) (hrc : d.rhsContracting = [1]) (hln : d.lhsNonContracting = [0])
    (hrn : d.rhsNonContracting = [0]) (hlb : d.lhsBatch = []) (hrb : d.rhsBatch = [])
    (l : (⟨2, ![R, K]⟩ : Shape).Idx → EReal) (r : (⟨2, ![C, K]⟩ : Shape).Idx → EReal) (p : Fin R) (q : Fin C) :
    ∑ k : d.contr.Idx, l (d.lhsIdx (ix2 p q) k) * r (d.rhsIdx (ix2 p q) k) = ∑ k : Fin K, l (ix2 p k) * r (ix2 q k) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_row d hlb hln _ _
    | ⟨1, _⟩ => exact (lhs_col d hlc _ _).trans hk
  have er : d.rhsIdx (ix2 p q) ((contrEquiv1 d K (contr_rank d hlc) (contr_size d hlc)).symm k) = ix2 q k := by
    funext a; apply Fin.ext
    match a with
    | ⟨0, _⟩ => exact rhs_row d hlb hrb hln hrn _ _
    | ⟨1, _⟩ => exact (rhs_col d hrc _ _).trans hk
  rw [el, er]

/-- A kernel's matrix product into the zero accumulator, at an entry, on the extended reals. -/
theorem matmul_zero_apply {φ₁ φ₂ : FTy} (hlc : d.lhsContracting = [1]) (hrc : d.rhsContracting = [1]) (hln : d.lhsNonContracting = [0])
    (hrn : d.rhsNonContracting = [0]) (hlb : d.lhsBatch = []) (hrb : d.rhsBatch = []) (prec : Option ContractPrecision)
    (l : FVec Ideal (⟨2, ![R, K]⟩ : Shape) φ₁) (r : FVec Ideal (⟨2, ![C, K]⟩ : Shape) φ₂) (p : Fin R) (q : Fin C) :
    FloatOps.matmul d prec l r (constant (⟨2, ![R, C]⟩ : Shape) .f32 0x00000000#32) (ix2 p q) = ∑ k : Fin K, l (ix2 p k) * r (ix2 q k) :=
  (Ideal.matmul_constant_zero_apply d prec l r (ix2 p q)).trans (sum_contr d hlc hrc hln hrn hlb hrb l r p q)

/-- The host's `dot_general`, at an entry, on the extended reals: the same sum. -/
theorem dotGeneral_apply {φ₁ φ₂ : FTy} (hlc : d.lhsContracting = [1]) (hrc : d.rhsContracting = [1]) (hln : d.lhsNonContracting = [0])
    (hrn : d.rhsNonContracting = [0]) (hlb : d.lhsBatch = []) (hrb : d.rhsBatch = []) (prec : Option ContractPrecision) (sched : HostSchedule)
    (l : FVec Ideal (⟨2, ![R, K]⟩ : Shape) φ₁) (r : FVec Ideal (⟨2, ![C, K]⟩ : Shape) φ₂) (p : Fin R) (q : Fin C) :
    FloatOps.dotGeneral d prec sched l r (ix2 p q) = ∑ k : Fin K, l (ix2 p k) * r (ix2 q k) :=
  (Ideal.dotGeneral_apply d prec sched l r (ix2 p q)).trans (sum_contr d hlc hrc hln hrn hlb hrb l r p q)

end Cert.DotNT

end
-- ==== Proof.PaySq.lean ====
/-
  The clamped squared distance both kernel bodies compute, read at an entry.

  From a block `x0` of `R` rows and a block `x1` of `C` rows of 128 extended reals each body forms the row sums of
  the squares of `x0` (as a column) and of `x1` (as a row), adds them entry by entry, takes away twice the matrix
  product of `x0` with `x1` transposed, and clamps the result below at zero. At entry `(r, q)` that is
  `max (|x0_r|² + |x1_q|² − 2·⟨x0_r, x1_q⟩) 0`, the specification's `sqd`. On the way: the few layout operations
  a sum with a kept unit axis needs (a vector cast to a column, a column broadcast over columns), and a one-axis
  sum, maximum or minimum of a matrix read as the `Fin`-indexed sum or fold along that axis.
-/
import proofs.«110653_j89103391523252_1_alg».proof.Proof.Spec
import proofs.«110653_j89103391523252_1_alg».proof.Proof.LibDotNT
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.Pay

open Idealize.ShloMosaic Idealize.ShloMosaic.ValueIdx

variable {α : Type}

/-! ## Layout operations at an index -/

/-- A vector cast to a column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast over many columns reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions over one axis of a matrix, at an index -/

/-- Over axis 1 the index above row `r` with coordinate `k` inserted is `(r, k)`. -/
theorem lift_axis1 {R K : ℕ} (h : (⟨2, ![R, K]⟩ : Shape).Reduces [1] (⟨1, ![R]⟩ : Shape)) (r : Fin R) (k : Fin K) :
    h.lift (ix1 r) k = ix2 r k := by
  funext c; apply Fin.ext
  match c with
  | ⟨0, _⟩ => rfl
  | ⟨1, _⟩ => rfl

/-- Over axis 0 the index above column `c` with coordinate `k` inserted is `(k, c)`. -/
theorem lift_axis0 {R K : ℕ} (h : (⟨2, ![R, K]⟩ : Shape).Reduces [0] (⟨1, ![K]⟩ : Shape)) (c : Fin K) (k : Fin R) :
    h.lift (ix1 c) k = ix2 k c := by
  funext a; apply Fin.ext
  match a with
  | ⟨0, _⟩ => rfl
  | ⟨1, _⟩ => rfl

/-- A sum along the rows: the add reduction over axis 1 of a matrix, at row `r`. -/
theorem rowSum_apply {R K : ℕ} {φ : FTy} (v : FVec Ideal (⟨2, ![R, K]⟩ : Shape) φ) (acc : BitVec φ.bits)
    (h : (⟨2, ![R, K]⟩ : Shape).Reduces [1] (⟨1, ![R]⟩ : Shape)) (hφ : FKind.Formats φ) (hacc : acc = FKind.add.neutral φ hφ) (r : Fin R) :
    multiReduction (F := Ideal) .add [1] (⟨1, ![R]⟩ : Shape) v acc h hφ hacc (ix1 r) = ∑ k : Fin K, v (ix2 r k) := by
  rw [Ideal.multiReduction_add_single]
  exact Finset.sum_congr rfl fun k _ => congrArg v (lift_axis1 h r k)

/-- A maximum along the rows: the maximum reduction over axis 1 of a matrix, at row `r`, folds from the
    accumulator's value over the row's entries. -/
theorem rowMax_apply {R K : ℕ} {φ : FTy} (v : FVec Ideal (⟨2, ![R, K]⟩ : Shape) φ) (acc : BitVec φ.bits)
    (h : (⟨2, ![R, K]⟩ : Shape).Reduces [1] (⟨1, ![R]⟩ : Shape)) (hφ : FKind.Formats φ) (hacc : acc = FKind.maximumf.neutral φ hφ) (r : Fin R) :
    multiReduction (F := Ideal) .maximumf [1] (⟨1, ![R]⟩ : Shape) v acc h hφ hacc (ix1 r)
      = (Finset.univ : Finset (Fin K)).fold max (Ideal.ofBits φ acc) fun k => v (ix2 r k) := by
  rw [Ideal.multiReduction_maximumf_single]
  exact congrArg (fun f => (Finset.univ : Finset (Fin K)).fold max (Ideal.ofBits φ acc) f) (funext fun k => congrArg v (lift_axis1 h r k))

/-- A minimum along the rows, likewise. -/
theorem rowMin_apply {R K : ℕ} {φ : FTy} (v : FVec Ideal (⟨2, ![R, K]⟩ : Shape) φ) (acc : BitVec φ.bits)
    (h : (⟨2, ![R, K]⟩ : Shape).Reduces [1] (⟨1, ![R]⟩ : Shape)) (hφ : FKind.Formats φ) (hacc : acc = FKind.minimumf.neutral φ hφ) (r : Fin R) :
    multiReduction (F := Ideal) .minimumf [1] (⟨1, ![R]⟩ : Shape) v acc h hφ hacc (ix1 r)
      = (Finset.univ : Finset (Fin K)).fold min (Ideal.ofBits φ acc) fun k => v (ix2 r k) := by
  rw [multiReduction_minimumf_eq_fold]
  refine (h.fold_filter_drop_single _ _ v (ix1 r)).trans ?_
  exact congrArg (fun f => (Finset.univ : Finset (Fin K)).fold min (Ideal.ofBits φ acc) f) (funext fun k => congrArg v (lift_axis1 h r k))

/-- A minimum down the columns: the minimum reduction over axis 0 of a matrix, at column `c`. -/
theorem colMin_apply {R K : ℕ} {φ : FTy} (v : FVec Ideal (⟨2, ![R, K]⟩ : Shape) φ) (acc : BitVec φ.bits)
    (h : (⟨2, ![R, K]⟩ : Shape).Reduces [0] (⟨1, ![K]⟩ : Shape)) (hφ : FKind.Formats φ) (hacc : acc = FKind.minimumf.neutral φ hφ) (c : Fin K) :
    multiReduction (F := Ideal) .minimumf [0] (⟨1, ![K]⟩ : Shape) v acc h hφ hacc (ix1 c)
      = (Finset.univ : Finset (Fin R)).fold min (Ideal.ofBits φ acc) fun k => v (ix2 k c) := by
  rw [multiReduction_minimumf_eq_fold]
  refine (h.fold_filter_drop_single _ _ v (ix1 c)).trans ?_
  exact congrArg (fun f => (Finset.univ : Finset (Fin R)).fold min (Ideal.ofBits φ acc) f) (funext fun k => congrArg v (lift_axis0 h c k))

/-! ## The clamped squared distance the two kernel bodies share -/

/-- The body's clamped squared distance matrix, from a block `x0` of `R` rows and a block `x1` of `C` rows: the row
    sums of the squares of each block (the second as a row), their sum minus twice the product of `x0` with `x1`
    transposed, clamped below at zero. Read at `(r, q)` it is the specification's `sqd`. -/
theorem sq_apply {R C : ℕ} (x0 : FVec Ideal (⟨2, ![R, 128]⟩ : Shape) .f32) (x1 : FVec Ideal (⟨2, ![C, 128]⟩ : Shape) .f32)
    (hr0 : (⟨2, ![R, 128]⟩ : Shape).Reduces [1] (⟨1, ![R]⟩ : Shape)) (hc0 : (⟨1, ![R]⟩ : Shape).ShapeCasts ⟨2, ![R, 1]⟩)
    (hr1 : (⟨2, ![C, 128]⟩ : Shape).Reduces [1] (⟨1, ![C]⟩ : Shape)) (hc1 : (⟨1, ![C]⟩ : Shape).ShapeCasts ⟨2, ![C, 1]⟩)
    (ht : (⟨2, ![C, 1]⟩ : Shape).Transposes [1, 0] ⟨2, ![1, C]⟩) (hbits : FTy.bits .bf16 < FTy.bits .f32)
    (hb0 : (⟨2, ![R, 1]⟩ : Shape).Broadcasts ⟨2, ![R, C]⟩) (hb1 : (⟨2, ![1, C]⟩ : Shape).Broadcasts ⟨2, ![R, C]⟩)
    (d : DotDims (⟨2, ![R, 128]⟩ : Shape) (⟨2, ![C, 128]⟩ : Shape) (⟨2, ![R, C]⟩ : Shape))
    (hlc : d.lhsContracting = [1]) (hrc : d.rhsContracting = [1]) (hln : d.lhsNonContracting = [0])
    (hrn : d.rhsNonContracting = [0]) (hlb : d.lhsBatch = []) (hrb : d.rhsBatch = [])
    (hφ : FKind.Formats .f32) (hacc : (0x00000000#32 : BitVec (FTy.bits .f32)) = FKind.add.neutral .f32 hφ) (r : Fin R) (q : Fin C) :
    maximumf (F := Ideal)
        (subf
          (addf
            (broadcastTo ⟨2, ![R, C]⟩ (shapeCast ⟨2, ![R, 1]⟩ (multiReduction (F := Ideal) .add [1] ⟨1, ![R]⟩ (mulf x0 x0) 0x00000000#32 hr0 hφ hacc) hc0) hb0)
            (broadcastTo ⟨2, ![R, C]⟩ (transpose ⟨2, ![1, C]⟩ [1, 0]
              (shapeCast ⟨2, ![C, 1]⟩ (multiReduction (F := Ideal) .add [1] ⟨1, ![C]⟩ (mulf x1 x1) 0x00000000#32 hr1 hφ hacc) hc1) ht) hb1))
          (mulf (broadcast ⟨2, ![R, C]⟩ (Scalar.ofBits (F := Ideal) .f32 0x40000000#32))
            (matmul d none (truncf .bf16 x0 hbits) (truncf .bf16 x1 hbits) (constant (F := Ideal) ⟨2, ![R, C]⟩ .f32 0x00000000#32))))
        (broadcast ⟨2, ![R, C]⟩ (Scalar.ofBits (F := Ideal) .f32 0x00000000#32)) (ix2 r q)
      = Cert.Spec.sqd x0 x1 r q := by
  rw [maximumf_apply, subf_apply, addf_apply, mulf_apply, broadcast_apply, broadcast_apply,
    broadcastTo_a1_ab_apply, shapeCast_a_a1_apply, rowSum_apply,
    broadcastTo_1b_ab_apply, transpose_ix2_apply, shapeCast_a_a1_apply, rowSum_apply]
  simp only [matmul]
  rw [Cert.DotNT.matmul_zero_apply d hlc hrc hln hrn hlb hrb]
  rfl

end Cert.Pay

end
-- ==== Proof.PayPos.lean ====
/-
  The first kernel's payload read at an index.

  From a block `x0` of 512 rows and a block `x1` of 2048 rows the body takes the square root of the clamped squared
  distance matrix and its maximum along each row, from `-∞`, kept as a column. At `(r, 0)` that is the
  specification's `rowMax`: the largest distance from row `r` of `x0` to a row of `x1`.
-/
import proofs.«110653_j89103391523252_1_alg».proof.Proof.Gen.KernelIdeal.Skeleton
import proofs.«110653_j89103391523252_1_alg».proof.Proof.Spec
import proofs.«110653_j89103391523252_1_alg».proof.Proof.LibDotNT
import proofs.«110653_j89103391523252_1_alg».proof.Proof.PaySq
import Idealize.ShloMosaic.PureOps.Ideal.Laws
import Idealize.ShloMosaic.Lib.ValueIdx
import Idealize.ShloMosaic.Lib.Pipeline.Value

noncomputable section

namespace Cert.Pay

open Idealize.ShloMosaic Idealize.ShloMosaic.ValueIdx

/-- The first kernel's payload at row `r`: the largest distance from row `r` of `x0` to a row of `x1`. -/
theorem pos_apply (x0 : Vec Ideal Cert.KernelIdeal.S512x128 .f32) (x1 : Vec Ideal Cert.KernelIdeal.S2048x128 .f32) (r : Fin 512) :
    Cert.KernelIdeal.Gen.k0_pay1 (F := Ideal) x0 x1 (ix2 r (0 : Fin 1)) = Cert.Spec.rowMax x0 x1 r := by
  unfold Cert.KernelIdeal.Gen.k0_pay1
  simp only []
  -- the column entry is the vector's; the row maximum is the fold of `max` along the row
  refine (shapeCast_a_a1_apply _ _ r 0).trans ?_
  refine (rowMax_apply _ _ _ _ _ r).trans ?_
  unfold Cert.Spec.rowMax
  refine congrArg (fun f => (Finset.univ : Finset (Fin 2048)).fold max _ f) (funext fun q => ?_)
  -- under the root, the clamped squared distance at `(r, q)`
  exact congrArg Ideal.sqrt (sq_apply x0 x1 _ _ _ _ _ _ _ _ _ rfl rfl rfl rfl rfl rfl _ _ r q)

end Cert.Pay

end
-- ==== Proof.KI.Value0.lean ====
/-
  The first pallas_call's result array read at an entry, on the extended reals.

  Point `t` of the grid's four writes back, to rows `512·t … 512·t + 511` of the result, the column its body
  computes from rows `512·t …` of the anchors and from all the positives: at row `r` the largest distance from
  anchor `512·t + r` to a positive. That value reads the anchors' block through its row `r` alone, so what every
  point writes back is its block of ONE function of the two argument arrays, and the four blocks tile the result:
  after the call, entry `b` of the result is the largest distance from anchor `b` to a positive.
-/
import proofs.«110653_j89103391523252_1_alg».proof.Proof.KI.Reg0
import proofs.«110653_j89103391523252_1_alg».proof.Proof.PayPos
import proofs.«110653_j89103391523252_1_alg».proof.Proof.Spec
import Idealize.ShloMosaic.Lib.Pipeline.Value
import Idealize.ShloMosaic.Lib.ValueIdx

noncomputable section

namespace Cert.KernelIdeal.Value0

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's rectangles start at the origin. -/
theorem origin : (![0, 0] : Fin 2 → Nat) = fun _ => 0 := funext fun a => by fin_cases a <;> rfl

/-- The printed index maps over the grid: the anchors' and the result's block index is `(t, 0)`, the positives' is
    `(0, 0)` at every point. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The largest distance from a row reads the first matrix through that row alone. -/
theorem rowMax_congr {R R' C : ℕ} (x : Cert.Spec.Mat R) (x' : Cert.Spec.Mat R') (y : Cert.Spec.Mat C) (r : Fin R) (r' : Fin R')
    (h : ∀ k : Fin 128, x (ix2 r k) = x' (ix2 r' k)) : Cert.Spec.rowMax x y r = Cert.Spec.rowMax x' y r' := by
  unfold Cert.Spec.rowMax Cert.Spec.sqd Cert.Spec.sqn Cert.Spec.dot
  simp only [h]

/-- The anchors' block at point `t`, at `(r, k)`, is the anchors at `(512·t + r, k)`. -/
theorem anchors_blk (c : Dev nD) (t : Fin cfg0.N) (r : Fin 512) (k : Fin 128) (b : Fin 2048) (hb : b.val = 512 * t.val + r.val) :
    (iblk0 V c 0 t : Vec Ideal S512x128 .f32) (ix2 r k) = (V c main_arg0 : S2048x128.Idx → EReal) (ix2 b k) := by
  obtain ⟨e0, e1, -⟩ := index_facts t
  unfold iblk0
  rw [View.read_apply]
  show V c main_arg0 _ = V c main_arg0 _
  congr 1
  funext a; apply Fin.ext
  match a with
  | ⟨0, _⟩ => show win0_0.index t (0 : Fin 2) * 512 + 1 * r.val = b.val; rw [e0, hb]; omega
  | ⟨1, _⟩ => show win0_0.index t (1 : Fin 2) * 128 + 1 * k.val = k.val; rw [e1]; omega

/-- The positives' block at every point is the positives. -/
theorem positives_blk (c : Dev nD) (t : Fin cfg0.N) :
    (iblk0 V c 1 t : Vec Ideal S2048x128 .f32) = (V c main_arg1 : S2048x128.Idx → EReal) := by
  obtain ⟨-, -, e0, e1, -⟩ := index_facts t
  funext y
  unfold iblk0
  rw [View.read_apply]
  show V c main_arg1 _ = V c main_arg1 y
  congr 1
  funext a; apply Fin.ext
  match a with
  | ⟨0, _⟩ => show win0_1.index t (0 : Fin 2) * 2048 + 1 * (y 0).val = (y 0).val; rw [e0]; omega
  | ⟨1, _⟩ => show win0_1.index t (1 : Fin 2) * 128 + 1 * (y 1).val = (y 1).val; rw [e1]; omega

/-- What the result array ends holding: at row `b` the largest distance from anchor `b` to a positive. -/
def G (c : Dev nD) : S2048x1.Idx → EReal := fun j =>
  Cert.Spec.rowMax (V c main_arg0 : S2048x128.Idx → EReal) (V c main_arg1 : S2048x128.Idx → EReal) ⟨(j 0).val, idx2_lt0 j⟩

/-- WHAT POINT `t` WRITES BACK is block `t` of `G`. -/
theorem flushed_eq (c : Dev nD) (t : Fin cfg0.N) :
    (dat0 (F := Ideal) V c).flushed 2 t = ((cfg0.win 2).blk t).view.read (Elt Ideal) (G V c) := by
  show (cfg0.win 2).cut (grid0.coords t) ((dat0 (F := Ideal) V c).after 2 t) = _
  rw [after0_2]
  unfold out0_2
  rw [View.canon_unit_zero origin]
  simp only [View.ld_unit_zero (S := S512x128) origin, View.ld_unit_zero (S := S2048x128) origin]
  obtain ⟨-, -, -, -, e0, e1⟩ := index_facts t
  funext y
  obtain ⟨r, u, rfl⟩ : ∃ (r : Fin 512) (u : Fin 1), y = ix2 r u := ⟨y 0, y 1, eq_ix2 y⟩
  obtain rfl : u = 0 := Subsingleton.elim _ _
  have ht : t.val < 4 := lt_of_lt_of_eq t.isLt N_0
  show k0_pay1 (F := Ideal) (iblk0 V c 0 t) (iblk0 V c 1 t) (ix2 r (0 : Fin 1)) = G V c (((cfg0.win 2).blk t).view.emb (ix2 r (0 : Fin 1)))
  refine (Cert.Pay.pos_apply (iblk0 V c 0 t) (iblk0 V c 1 t) r).trans ?_
  rw [positives_blk V c t]
  unfold G
  refine rowMax_congr _ _ _ r _ fun k => anchors_blk V c t r k _ ?_
  show win0_2.index t (0 : Fin 2) * 512 + 1 * r.val = 512 * t.val + r.val
  rw [e0]; omega

/-- An index of the result is in point `t`'s block iff each coordinate is in the block's range on its axis. -/
theorem mem_blk (t : Fin cfg0.N) (i : S2048x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v1).slice (win0_2.rect t)).set ↔ _
  rw [View.set_slice_whole, Rect.mem_set_unit]
  exact Iff.rfl

/-- Every index of the result is in the block of the point its row falls to: row `b` in point `b / 512`'s. -/
theorem cover (i : S2048x1.Idx) : ∃ t : Fin cfg0.N, (cfg0.win 2).flush t = true ∧ i ∈ ((cfg0.win 2).blk t).view.set := by
  have hi0 : (i 0).val < 2048 := idx2_lt0 i
  have hi1 : (i 1).val < 1 := idx2_lt1 i
  refine ⟨⟨(i 0).val / 512, by rw [show cfg0.N = 4 from N_0]; omega⟩, flush0_2 _, ?_⟩
  rw [mem_blk]
  obtain ⟨-, -, -, -, e0, e1⟩ := index_facts ⟨(i 0).val / 512, by rw [show cfg0.N = 4 from N_0]; omega⟩
  intro a
  match a with
  | ⟨0, _⟩ =>
    show win0_2.index _ (0 : Fin 2) * 512 ≤ (i 0).val ∧ (i 0).val < win0_2.index _ (0 : Fin 2) * 512 + 512
    rw [e0]; show (i 0).val / 512 * 512 ≤ (i 0).val ∧ (i 0).val < (i 0).val / 512 * 512 + 512; omega
  | ⟨1, _⟩ =>
    show win0_2.index _ (1 : Fin 2) * 1 ≤ (i 1).val ∧ (i 1).val < win0_2.index _ (1 : Fin 2) * 1 + 1
    rw [e1]; omega

/-- THE RESULT ARRAY after the call is `G`. -/
theorem final (c : Dev nD) : (dat0 (F := Ideal) V c).arrAt 2 cfg0.N = G V c :=
  (dat0 (F := Ideal) V c).arrAt_eq_of_cover 2 (G V c) (fun t _ => flushed_eq V c t) cover

/-- The result array after the first pallas_call, at row `b`: the largest distance from anchor `b` to a positive. -/
theorem dpos_apply (c : Dev nD) (b : Fin 2048) :
    (dat0 (F := Ideal) V c).arrAt 2 cfg0.N (ix2 b (0 : Fin 1)) = Cert.Spec.rowMax (V c main_arg0) (V c main_arg1) b := by
  rw [final V c]
  rfl

end Cert.KernelIdeal.Value0

end
-- ==== Proof.PayNeg.lean ====
/-
  The second kernel's two payloads read at their one index.

  From a block `x0` of 512 rows and a block `x1` of 4096 rows the body takes the minimum of the clamped squared
  distance matrix along each row, from `+∞`, kept as a column, and then the minimum of that column, from `+∞`: a
  one-by-one value, the specification's `allMin`. The second payload is the minimum of a running value with it.
-/
import proofs.«110653_j89103391523252_1_alg».proof.Proof.Gen.KernelIdeal.Skeleton
import proofs.«110653_j89103391523252_1_alg».proof.Proof.Spec
import proofs.«110653_j89103391523252_1_alg».proof.Proof.LibDotNT
import proofs.«110653_j89103391523252_1_alg».proof.Proof.PaySq
import Idealize.ShloMosaic.PureOps.Ideal.Laws
import Idealize.ShloMosaic.Lib.ValueIdx
import Idealize.ShloMosaic.Lib.Pipeline.Value

noncomputable section

namespace Cert.Pay

open Idealize.ShloMosaic Idealize.ShloMosaic.ValueIdx

/-- The second kernel's first payload at its one entry: the least clamped squared distance over every pair of a
    row of `x0` and a row of `x1`, row by row. -/
theorem neg_apply (x0 : Vec Ideal Cert.KernelIdeal.S512x128 .f32) (x1 : Vec Ideal Cert.KernelIdeal.S4096x128 .f32) :
    Cert.KernelIdeal.Gen.k1_pay1 (F := Ideal) x0 x1 (ix2 (0 : Fin 1) (0 : Fin 1)) = Cert.Spec.allMin x0 x1 := by
  unfold Cert.KernelIdeal.Gen.k1_pay1
  simp only []
  -- the one entry is the column minimum: the fold of `min` down the column of row minima
  refine (shapeCast_a_a1_apply _ _ 0 0).trans ?_
  refine (colMin_apply _ _ _ _ _ 0).trans ?_
  unfold Cert.Spec.allMin
  refine congrArg (fun f => (Finset.univ : Finset (Fin 512)).fold min _ f) (funext fun k => ?_)
  -- the row minimum at row `k`: the fold of `min` along the row
  refine (shapeCast_a_a1_apply _ _ k 0).trans ?_
  refine (rowMin_apply _ _ _ _ _ k).trans ?_
  refine congrArg (fun f => (Finset.univ : Finset (Fin 4096)).fold min _ f) (funext fun q => ?_)
  -- the clamped squared distance at `(k, q)`; the second block enters through a cast to its own shape
  refine (sq_apply x0 _ _ _ _ _ _ _ _ _ _ rfl rfl rfl rfl rfl rfl _ _ k q).trans ?_
  rw [shapeCast_self]

/-- The second kernel's second payload at its one entry: the running least value against this block's. -/
theorem neg2_apply (x0 : Vec Ideal Cert.KernelIdeal.S512x128 .f32) (x1 : Vec Ideal Cert.KernelIdeal.S4096x128 .f32)
    (v : Vec Ideal Cert.KernelIdeal.S1x1 .f32) :
    Cert.KernelIdeal.Gen.k1_pay2 (F := Ideal) x0 x1 v (ix2 (0 : Fin 1) (0 : Fin 1))
      = min (v (ix2 (0 : Fin 1) (0 : Fin 1))) (Cert.Spec.allMin x0 x1) := by
  unfold Cert.KernelIdeal.Gen.k1_pay2
  rw [minimumf_apply, shapeCast_self, neg_apply]

end Cert.Pay

end
-- ==== Proof.Tiles.lean ====
/-
  The least value over every pair of an anchor row and a negative row, gathered tile by tile.

  The 2048 × 32768 pairs are cut into 32 tiles of 512 × 4096: tile `t` pairs the anchor rows
  `512·(t mod 4) … + 511` with the negative rows `4096·(t div 4) … + 4095`. Every pair `(b, q)` lies in exactly the
  tile `4·(q div 4096) + b div 512`, at the place `(b mod 512, q mod 4096)` inside it, so a running minimum that
  takes in one tile after another ends, after the 32 tiles, at the least value over all pairs. Both sides are
  compared through their lower bounds: `c` is below a minimum exactly when it is below every member.
-/
import proofs.«110653_j89103391523252_1_alg».proof.Proof.Spec
import Mathlib.Data.Finset.Fold
import Mathlib.Order.Lattice
import Mathlib.Tactic.NormNum.Basic

noncomputable section

namespace Cert.Spec

/-- The least value of `f` over tile `t`; the entries are read modulo the two extents, which changes nothing for
    `t` below 32 and keeps the definition total. -/
def tileMin (f : Fin 2048 → Fin 32768 → EReal) (t : ℕ) : EReal :=
  (Finset.univ : Finset (Fin 512)).fold min posInf fun r =>
    (Finset.univ : Finset (Fin 4096)).fold min posInf fun q =>
      f ⟨(512 * (t % 4) + r.val) % 2048, Nat.mod_lt _ (by norm_num)⟩ ⟨(4096 * (t / 4) + q.val) % 32768, Nat.mod_lt _ (by norm_num)⟩

/-- Everything is below the value a minimum starts from. -/
theorem le_posInf (c : EReal) : c ≤ posInf := by
  rw [posInf_eq]; exact le_top

/-- `c` is below a tile's least value exactly when it is below every entry of the tile. -/
theorem le_tileMin_iff (f : Fin 2048 → Fin 32768 → EReal) (t : ℕ) (c : EReal) :
    c ≤ tileMin f t ↔ ∀ (r : Fin 512) (q : Fin 4096),
      c ≤ f ⟨(512 * (t % 4) + r.val) % 2048, Nat.mod_lt _ (by norm_num)⟩ ⟨(4096 * (t / 4) + q.val) % 32768, Nat.mod_lt _ (by norm_num)⟩ := by
  unfold tileMin
  constructor
  · intro h r q
    exact ((Finset.le_fold_min _).1 (((Finset.le_fold_min _).1 h).2 r (Finset.mem_univ _))).2 q (Finset.mem_univ _)
  · intro h
    exact (Finset.le_fold_min _).2 ⟨le_posInf c, fun r _ => (Finset.le_fold_min _).2 ⟨le_posInf c, fun q _ => h r q⟩⟩

/-- `c` is below the least value over all pairs exactly when it is below every entry. -/
theorem le_allPairs_iff (f : Fin 2048 → Fin 32768 → EReal) (c : EReal) :
    (c ≤ (Finset.univ : Finset (Fin 2048)).fold min posInf fun b => (Finset.univ : Finset (Fin 32768)).fold min posInf fun q => f b q)
      ↔ ∀ (b : Fin 2048) (q : Fin 32768), c ≤ f b q := by
  constructor
  · intro h b q
    exact ((Finset.le_fold_min _).1 (((Finset.le_fold_min _).1 h).2 b (Finset.mem_univ _))).2 q (Finset.mem_univ _)
  · intro h
    exact (Finset.le_fold_min _).2 ⟨le_posInf c, fun b _ => (Finset.le_fold_min _).2 ⟨le_posInf c, fun q _ => h b q⟩⟩

/-- The running minimum after tile `n` is the greatest lower bound of the tiles `0 … n`. -/
theorem le_running_iff (f : Fin 2048 → Fin 32768 → EReal) (g : ℕ → EReal) (h0 : g 0 = tileMin f 0)
    (hs : ∀ n, n < 31 → g (n + 1) = min (g n) (tileMin f (n + 1))) (c : EReal) (n : ℕ) (hn : n ≤ 31) :
    c ≤ g n ↔ ∀ t, t ≤ n → c ≤ tileMin f t := by
  induction n with
  | zero =>
    rw [h0]
    constructor
    · intro h t ht
      obtain rfl : t = 0 := by omega
      exact h
    · intro h; exact h 0 le_rfl
  | succ n ih =>
    rw [hs n (by omega), le_min_iff, ih (by omega)]
    constructor
    · rintro ⟨h1, h2⟩ t ht
      rcases Nat.lt_or_ge t (n + 1) with hlt | hge
      · exact h1 t (by omega)
      · obtain rfl : t = n + 1 := by omega
        exact h2
    · intro h
      exact ⟨fun t ht => h t (by omega), h (n + 1) le_rfl⟩

/-- An entry named by two numbers that are the coordinates of `(b, q)` is the entry at `(b, q)`. -/
theorem entry_eq (f : Fin 2048 → Fin 32768 → EReal) (b : Fin 2048) (q : Fin 32768) (x y : ℕ) (hx : x < 2048) (hy : y < 32768)
    (ex : x = b.val) (ey : y = q.val) : f ⟨x, hx⟩ ⟨y, hy⟩ = f b q := by
  subst ex ey; rfl

/-- After the 32 tiles the running minimum is the least value over all 2048 × 32768 pairs. -/
theorem tiles_min (f : Fin 2048 → Fin 32768 → EReal) (g : ℕ → EReal) (h0 : g 0 = tileMin f 0)
    (hs : ∀ n, n < 31 → g (n + 1) = min (g n) (tileMin f (n + 1))) :
    g 31 = (Finset.univ : Finset (Fin 2048)).fold min posInf fun b => (Finset.univ : Finset (Fin 32768)).fold min posInf fun q => f b q := by
  refine eq_of_forall_le_iff fun c => ?_
  rw [le_running_iff f g h0 hs c 31 le_rfl, le_allPairs_iff]
  constructor
  · intro h b q
    have hb := b.isLt
    have hq := q.isLt
    have ht := h (4 * (q.val / 4096) + b.val / 512) (by omega)
    have he := (le_tileMin_iff f _ c).1 ht ⟨b.val % 512, Nat.mod_lt _ (by norm_num)⟩ ⟨q.val % 4096, Nat.mod_lt _ (by norm_num)⟩
    exact he.trans_eq (entry_eq f b q _ _ _ _ (by simp only []; omega) (by simp only []; omega))
  · intro h t _
    exact (le_tileMin_iff f t c).2 fun r q => h _ _

end Cert.Spec

end
-- ==== Proof.KI.Value1.lean ====
/-
  The second pallas_call's result array read at its one entry, at the ideal values.

  The output buffer after point `n` is a recursion on `n`: the tile's least clamped squared distance at the first
  point, the smaller of that and what the buffer held at every later one. A tile's two blocks are rows of the two
  arrays (anchor rows `512·(t mod 4) …`, negative rows `4096·(t div 4) …`), and a clamped squared distance reads
  only its two rows, so the tile's least value is the least of the array's entries over the tile. After the 32
  tiles the running minimum is the least value over every pair; the one write-back, after the last point, writes
  the buffer to the 1×1 result array, which it covers.
-/
import proofs.«110653_j89103391523252_1_alg».proof.Proof.KI.Reg1
import proofs.«110653_j89103391523252_1_alg».proof.Proof.PayNeg
import proofs.«110653_j89103391523252_1_alg».proof.Proof.Spec
import proofs.«110653_j89103391523252_1_alg».proof.Proof.Tiles
import Idealize.ShloMosaic.Lib.Pipeline.Value
import Idealize.ShloMosaic.Lib.ValueIdx

set_option maxRecDepth 16384

noncomputable section

namespace Cert.KernelIdeal.Value1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

/-- The pair of zero offsets, as the constant function. -/
theorem zeros2 : (![0, 0] : Fin 2 → Nat) = fun _ => 0 := by
  funext a; match a with | ⟨0, _⟩ => rfl | ⟨1, _⟩ => rfl

/-- After the body at the first point the output buffer's entry is the tile's least value. -/
theorem out1_A_apply (x0 : Vec Ideal S512x128 .f32) (x1 : Vec Ideal S4096x128 .f32) :
    out1_A (F := Ideal) x0 x1 (ix2 (0 : Fin 1) (0 : Fin 1)) = Cert.Spec.allMin x0 x1 := by
  unfold out1_A
  rw [View.canon_unit_zero zeros2, View.ld_unit_zero zeros2, View.ld_unit_zero zeros2]
  exact Cert.Pay.neg_apply x0 x1

/-- After the body at a later point it is the smaller of what it held and the tile's least value. -/
theorem out1_B_apply (x0 : Vec Ideal S512x128 .f32) (x1 : Vec Ideal S4096x128 .f32) (y : Vec Ideal S1x1 .f32) :
    out1_B (F := Ideal) x0 x1 y (ix2 (0 : Fin 1) (0 : Fin 1)) = min (y (ix2 (0 : Fin 1) (0 : Fin 1))) (Cert.Spec.allMin x0 x1) := by
  unfold out1_B
  rw [View.canon_unit_zero zeros2, View.ld_unit_zero zeros2, View.ld_unit_zero zeros2, View.ld_unit_zero zeros2]
  exact Cert.Pay.neg2_apply x0 x1 y

/-! ## The tile's least value is the least of the arrays' entries over the tile -/

/-- A clamped squared distance between a row of a block of `A` and a row of a block of `N` is the one between
    the two rows of the arrays. -/
theorem sqd_blocks (A : Cert.Spec.Mat 2048) (N : Cert.Spec.Mat 32768) (x0 : Cert.Spec.Mat 512) (x1 : Cert.Spec.Mat 4096) (i0 i1 : ℕ)
    (h0 : ∀ (r : Fin 512) (k : Fin 128), x0 (ix2 r k) = A (ix2 ⟨(512 * i0 + r.val) % 2048, Nat.mod_lt _ (by norm_num)⟩ k))
    (h1 : ∀ (q : Fin 4096) (k : Fin 128), x1 (ix2 q k) = N (ix2 ⟨(4096 * i1 + q.val) % 32768, Nat.mod_lt _ (by norm_num)⟩ k))
    (r : Fin 512) (q : Fin 4096) :
    Cert.Spec.sqd x0 x1 r q
      = Cert.Spec.sqd A N ⟨(512 * i0 + r.val) % 2048, Nat.mod_lt _ (by norm_num)⟩ ⟨(4096 * i1 + q.val) % 32768, Nat.mod_lt _ (by norm_num)⟩ := by
  unfold Cert.Spec.sqd Cert.Spec.sqn Cert.Spec.dot
  simp only [h0, h1]

/-- So the least value over the two blocks of tile `t` is the tile's least value of the arrays' distances. -/
theorem allMin_blocks (A : Cert.Spec.Mat 2048) (N : Cert.Spec.Mat 32768) (x0 : Cert.Spec.Mat 512) (x1 : Cert.Spec.Mat 4096) (t : ℕ)
    (h0 : ∀ (r : Fin 512) (k : Fin 128), x0 (ix2 r k) = A (ix2 ⟨(512 * (t % 4) + r.val) % 2048, Nat.mod_lt _ (by norm_num)⟩ k))
    (h1 : ∀ (q : Fin 4096) (k : Fin 128), x1 (ix2 q k) = N (ix2 ⟨(4096 * (t / 4) + q.val) % 32768, Nat.mod_lt _ (by norm_num)⟩ k)) :
    Cert.Spec.allMin x0 x1 = Cert.Spec.tileMin (fun b q => Cert.Spec.sqd A N b q) t := by
  unfold Cert.Spec.allMin Cert.Spec.tileMin
  exact Finset.fold_congr fun r _ => Finset.fold_congr fun q _ => sqd_blocks A N x0 x1 (t % 4) (t / 4) h0 h1 r q

variable (V : (c : Dev nD) → (b : Ref sig .tc) → Buf (Elt Ideal) ((c : Thread nD τ).loc b))

/-- Where the two input windows' blocks sit at point `t`: the anchors' block index is `(t mod 4, 0)`, -/
theorem index1_0 : ∀ t : Fin cfg1.N, win1_0.index t 0 = t.val % 4 ∧ win1_0.index t 1 = 0 :=
  (by decide +kernel : ∀ t : Fin grid1.N, win1_0.index t 0 = t.val % 4 ∧ win1_0.index t 1 = 0)
/-- the negatives' `(t div 4, 0)`, -/
theorem index1_1 : ∀ t : Fin cfg1.N, win1_1.index t 0 = t.val / 4 ∧ win1_1.index t 1 = 0 :=
  (by decide +kernel : ∀ t : Fin grid1.N, win1_1.index t 0 = t.val / 4 ∧ win1_1.index t 1 = 0)
/-- and the output's `(0, 0)` at every point. -/
theorem index1_2 : ∀ t : Fin cfg1.N, win1_2.index t 0 = 0 ∧ win1_2.index t 1 = 0 :=
  (by decide +kernel : ∀ t : Fin grid1.N, win1_2.index t 0 = 0 ∧ win1_2.index t 1 = 0)

/-- The anchors' block at point `t` is rows `512·(t mod 4) …` of the anchors. -/
theorem iblk1_0_apply (c : Dev nD) (t : Fin cfg1.N) (r : Fin 512) (k : Fin 128) :
    (iblk1 (F := Ideal) V c 0 t : Vec Ideal S512x128 .f32) (ix2 r k)
      = (V c main_arg0 : S2048x128.Idx → Ideal .f32) (ix2 ⟨(512 * (t.val % 4) + r.val) % 2048, Nat.mod_lt _ (by norm_num)⟩ k) := by
  have hr := r.isLt
  unfold iblk1
  rw [View.read_apply]
  show V c main_arg0 _ = V c main_arg0 _
  congr 1
  funext a
  apply Fin.ext
  match a with
  | ⟨0, _⟩ =>
    show win1_0.index t 0 * 512 + 1 * r.val = (512 * (t.val % 4) + r.val) % 2048
    rw [(index1_0 t).1]; omega
  | ⟨1, _⟩ =>
    show win1_0.index t 1 * 128 + 1 * k.val = k.val
    rw [(index1_0 t).2]; omega

/-- The negatives' block at point `t` is rows `4096·(t div 4) …` of the negatives. -/
theorem iblk1_1_apply (c : Dev nD) (t : Fin cfg1.N) (q : Fin 4096) (k : Fin 128) :
    (iblk1 (F := Ideal) V c 1 t : Vec Ideal S4096x128 .f32) (ix2 q k)
      = (V c main_v0 : S32768x128.Idx → Ideal .f32) (ix2 ⟨(4096 * (t.val / 4) + q.val) % 32768, Nat.mod_lt _ (by norm_num)⟩ k) := by
  have hq := q.isLt
  have hN : cfg1.N = 32 := N_1
  have ht : t.val < 32 := by have := t.isLt; omega
  unfold iblk1
  rw [View.read_apply]
  show V c main_v0 _ = V c main_v0 _
  congr 1
  funext a
  apply Fin.ext
  match a with
  | ⟨0, _⟩ =>
    show win1_1.index t 0 * 4096 + 1 * q.val = (4096 * (t.val / 4) + q.val) % 32768
    rw [(index1_1 t).1]; omega
  | ⟨1, _⟩ =>
    show win1_1.index t 1 * 128 + 1 * k.val = k.val
    rw [(index1_1 t).2]; omega

/-! ## The running minimum over the points -/

/-- The clamped squared distance between anchor `b` and negative row `q`, over the two arrays as the call finds them. -/
abbrev dist2 (c : Dev nD) : Fin 2048 → Fin 32768 → EReal :=
  fun b q => Cert.Spec.sqd (V c main_arg0 : Cert.Spec.Mat 2048) (V c main_v0 : Cert.Spec.Mat 32768) b q

/-- The least value over the two blocks of point `t` is the least of the arrays' distances over tile `t`. -/
theorem tile_eq (c : Dev nD) (t : Fin cfg1.N) :
    Cert.Spec.allMin (iblk1 (F := Ideal) V c 0 t : Vec Ideal S512x128 .f32) (iblk1 (F := Ideal) V c 1 t : Vec Ideal S4096x128 .f32)
      = Cert.Spec.tileMin (dist2 V c) t.val :=
  allMin_blocks (V c main_arg0) (V c main_v0) (iblk1 (F := Ideal) V c 0 t) (iblk1 (F := Ideal) V c 1 t) t.val
    (iblk1_0_apply V c t) (iblk1_1_apply V c t)

/-- The output buffer's entry after point `n` (beyond the grid, the value a minimum starts from). -/
def run1 (c : Dev nD) (n : ℕ) : EReal :=
  if h : n < cfg1.N then acc1 (F := Ideal) V c n h (ix2 (0 : Fin 1) (0 : Fin 1)) else Cert.Spec.posInf

theorem run1_zero (c : Dev nD) : run1 V c 0 = Cert.Spec.tileMin (dist2 V c) 0 := by
  have hN : cfg1.N = 32 := N_1
  have h : 0 < cfg1.N := by omega
  unfold run1
  rw [dif_pos h, acc1_zero, out1_A_apply]
  exact tile_eq V c ⟨0, h⟩

theorem run1_succ (c : Dev nD) (n : ℕ) (hn : n < 31) :
    run1 V c (n + 1) = min (run1 V c n) (Cert.Spec.tileMin (dist2 V c) (n + 1)) := by
  have hN : cfg1.N = 32 := N_1
  have h : n + 1 < cfg1.N := by omega
  unfold run1
  rw [dif_pos h, dif_pos (Nat.lt_of_succ_lt h), acc1_succ, out1_B_apply]
  exact congrArg (min _) (tile_eq V c ⟨n + 1, h⟩)

theorem last_lt : 31 < cfg1.N := by
  have hN : cfg1.N = 32 := N_1
  omega

/-- After the last point the output buffer's entry is the least clamped squared distance over every pair. -/
theorem acc1_last (c : Dev nD) :
    acc1 (F := Ideal) V c 31 last_lt (ix2 (0 : Fin 1) (0 : Fin 1))
      = Cert.Spec.allMin (V c main_arg0 : Cert.Spec.Mat 2048) (V c main_v0 : Cert.Spec.Mat 32768) := by
  have h := Cert.Spec.tiles_min (dist2 V c) (run1 V c) (run1_zero V c) (run1_succ V c)
  unfold run1 at h
  rw [dif_pos last_lt] at h
  rw [h]
  rfl

/-! ## The result array after the call -/

/-- The one write-back, after the last point, writes the buffer: block (0, 0) of the 1×1 array is the array. -/
theorem flushed_eq (c : Dev nD) (t : Fin cfg1.N) (hf : (cfg1.win 2).flush t = true) :
    (dat1 (F := Ideal) V c).flushed 2 t = ((cfg1.win 2).blk t).view.read (Elt Ideal) (acc1 (F := Ideal) V c 31 last_lt) := by
  have hN : cfg1.N = 32 := N_1
  have h31 : t.val = 31 := by have := (flush1_2 t).mp hf; have := t.isLt; omega
  have e : ∀ (n : ℕ) (h : n < cfg1.N), n = 31 → acc1 (F := Ideal) V c n h = acc1 (F := Ideal) V c 31 last_lt :=
    fun n h en => by subst en; rfl
  have hoff : (fun a => win1_2.index t a * main_v3.ty.shape.size a) = fun _ => 0 := funext fun a => by
    match a with
    | ⟨0, _⟩ => show win1_2.index t 0 * _ = 0; rw [(index1_2 t).1, Nat.zero_mul]
    | ⟨1, _⟩ => show win1_2.index t 1 * _ = 0; rw [(index1_2 t).2, Nat.zero_mul]
  show (cfg1.win 2).cut (grid1.coords t) ((dat1 (F := Ideal) V c).after 2 t) = _
  rw [after1_2, e t.val t.isLt h31]
  exact (Memref.read_access_unit_zero (Elt Ideal) main_v3 hoff (fun a => by rw [congrFun hoff a]; simp) _).symm

/-- So the result array ends holding the buffer after the last point: that point's block covers the array. -/
theorem dneg_array (c : Dev nD) : (dat1 (F := Ideal) V c).arrAt 2 cfg1.N = acc1 (F := Ideal) V c 31 last_lt :=
  (dat1 (F := Ideal) V c).arrAt_eq_of_cover 2 (acc1 (F := Ideal) V c 31 last_lt) (flushed_eq V c) fun i =>
    ⟨⟨31, last_lt⟩, (flush1_2 _).mpr rfl, by
      show i ∈ ((View.whole main_v3).slice (win1_2.rect ⟨31, last_lt⟩)).set
      rw [View.set_slice_whole, Rect.mem_set_unit]
      intro a
      have h0 : (i 0 : Nat) < 1 := (i 0).isLt
      have h1 : (i 1 : Nat) < 1 := (i 1).isLt
      match a with
      | ⟨0, _⟩ =>
        show win1_2.index ⟨31, last_lt⟩ 0 * 1 ≤ (i 0 : Nat) ∧ (i 0 : Nat) < win1_2.index ⟨31, last_lt⟩ 0 * 1 + 1
        rw [(index1_2 _).1]; omega
      | ⟨1, _⟩ =>
        show win1_2.index ⟨31, last_lt⟩ 1 * 1 ≤ (i 1 : Nat) ∧ (i 1 : Nat) < win1_2.index ⟨31, last_lt⟩ 1 * 1 + 1
        rw [(index1_2 _).2]; omega⟩

/-- The second pallas_call's result at its one entry: the least clamped squared distance over every anchor and every
    negative row. -/
theorem dneg_apply (c : Dev nD) :
    (dat1 (F := Ideal) V c).arrAt 2 cfg1.N (ix2 (0 : Fin 1) (0 : Fin 1))
      = Cert.Spec.allMin (V c main_arg0 : Cert.Spec.Mat 2048) (V c main_v0 : Cert.Spec.Mat 32768) := by
  rw [dneg_array V c]
  exact acc1_last V c

end Cert.KernelIdeal.Value1

end
-- ==== Proof.Tail.lean ====
/-
  The last stretch both programs share: from the hardest positive of every anchor (2048 extended reals) and the one
  hardest negative, the hinge `max (d⁺ − d⁻ + ¼) 0` of every anchor, and their mean (the sum divided by 2048).
  Kept as ONE function so that the two programs' results are compared by comparing its two arguments.
-/
import proofs.«110653_j89103391523252_1_alg».proof.Proof.Gen.KernelIdeal
import Idealize.ShloMosaic.PureOps.Ideal

noncomputable section

namespace Cert.Tail

open Idealize.ShloMosaic Cert.KernelIdeal Cert.KernelIdeal.Facts₀

/-- The mean over the anchors of the hinge of `dp − dn + ¼`; the quarter, the zero and the 2048 are the printed words. -/
def tail (dp : FVec Ideal S2048 .f32) (dn : FVec Ideal S_ .f32) : FVec Ideal S_ .f32 :=
  Host.divf (F := Ideal)
    (Host.reduceAdd (F := Ideal)
      (maximumf (F := Ideal)
        (addf (F := Ideal) (subf (F := Ideal) dp (broadcastInDim S2048 ![] bcast_S_S2048 dn))
          (broadcastInDim S2048 ![] bcast_S_S2048 (constant (F := Ideal) S_ .f32 0x3E800000#32)))
        (broadcastInDim S2048 ![] bcast_S_S2048 (constant (F := Ideal) S_ .f32 0x00000000#32)))
      (constant (F := Ideal) S_ .f32 0x00000000#32) reducesTo_S2048_S_d0 h_S_)
    (constant (F := Ideal) S_ .f32 0x45000000#32)

end Cert.Tail

end
-- ==== Proof.RefValue.lean ====
/-
  The reference read at an index.

  Every stage of the reference but its two order reductions is read element by element from the stage lemmas; here
  the two reductions are read by hand. Row `b` of the positive distances folds `max` from `-∞` over the 2048
  columns, which is the hardest positive of anchor `b`; the negative distances fold `min` from `+∞` over every
  index of a 2048 × 32768 array, and a least value over a product of two finite ranges is the least over the rows
  of the least over the columns. What follows the two reductions is the shared tail.
-/
import proofs.«110653_j89103391523252_1_alg».proof.Proof.Gen.ReferenceIdeal.Read
import proofs.«110653_j89103391523252_1_alg».proof.Proof.Spec
import proofs.«110653_j89103391523252_1_alg».proof.Proof.Tail
import Idealize.ShloMosaic.PureOps.Reduce
import Idealize.ShloMosaic.PureOps.Ideal.Laws
import Idealize.ShloMosaic.Lib.ValueIdx
import Mathlib.Data.Finset.Fold

noncomputable section

namespace Cert.RefValue

open Idealize.ShloMosaic Idealize.ShloMosaic.ValueIdx Cert.ReferenceIdeal Cert.ReferenceIdeal.Gen Cert.ReferenceIdeal.Read

/-- The distance from anchor `b` to positive `q`: the stages from the two inputs to the root, at one element. -/
theorem dist_pos (a p : FVec Ideal S2048x128 .f32) (b q : Fin 2048) :
    val_main_v16 (F := Ideal) a p (ix2 b q) = Ideal.sqrt (Cert.Spec.sqd a p b q) := by
  have e1 : ∀ k : Fin 128, idx_main_v1 (idx_main_v2 (idx_main_v6 (ix2 b q))) k = ix2 b k := fun k =>
    funext fun c => Fin.ext (by match c with | ⟨0, _⟩ => rfl | ⟨1, _⟩ => rfl)
  have e4 : ∀ k : Fin 128, idx_main_v4 (idx_main_v5 (idx_main_v7 (ix2 b q))) k = ix2 q k := fun k =>
    funext fun c => Fin.ext (by match c with | ⟨0, _⟩ => rfl | ⟨1, _⟩ => rfl)
  have el : ∀ k : Fin 128, lidx_main_v10 (ix2 b q) k = ix2 b k := fun k =>
    funext fun c => Fin.ext (by match c with | ⟨0, _⟩ => rfl | ⟨1, _⟩ => rfl)
  have er : ∀ k : Fin 128, idx_main_v9 (ridx_main_v10 (ix2 b q) k) = ix2 q k := fun k =>
    funext fun c => Fin.ext (by match c with | ⟨0, _⟩ => rfl | ⟨1, _⟩ => rfl)
  rw [val_main_v16_apply, val_main_v15_apply, val_main_v13_apply, val_main_v8_apply, val_main_v6_apply, val_main_v2_apply,
    val_main_v1_apply, val_main_v7_apply, val_main_v5_apply, val_main_v4_apply, val_main_v12_apply, val_main_v11_apply,
    val_main_v10_apply, val_main_v14_apply]
  simp only [val_main_v0_apply, val_main_v3_apply, val_main_v9_apply, val_main_cst_apply, val_main_cst_0_apply,
    val_main_cst_1_apply, val_main_cst_2_apply, e1, e4, el, er, Ideal.hostUnary_sqrt_def, Ideal.maximumf_def, Ideal.subf_def,
    Ideal.addf_def, Ideal.mulf_def, Ideal.ofBits_def]
  unfold Cert.Spec.sqd Cert.Spec.sqn Cert.Spec.dot
  rw [Ideal.ofBits_zero_f32, zero_add, zero_add]

/-- The distance from anchor `b` to row `q` of the negatives laid out as 32768 rows: the same stages over the
    reshaped third input. -/
theorem dist_neg (a : FVec Ideal S2048x128 .f32) (n3 : FVec Ideal S2048x16x128 .f32) (b : Fin 2048) (q : Fin 32768) :
    val_main_v35 (F := Ideal) a n3 (ix2 b q) = Ideal.sqrt (Cert.Spec.sqd a (val_main_v18 (F := Ideal) n3) b q) := by
  have e20 : ∀ k : Fin 128, idx_main_v20 (idx_main_v21 (idx_main_v25 (ix2 b q))) k = ix2 b k := fun k =>
    funext fun c => Fin.ext (by match c with | ⟨0, _⟩ => rfl | ⟨1, _⟩ => rfl)
  have e23 : ∀ k : Fin 128, idx_main_v23 (idx_main_v24 (idx_main_v26 (ix2 b q))) k = ix2 q k := fun k =>
    funext fun c => Fin.ext (by match c with | ⟨0, _⟩ => rfl | ⟨1, _⟩ => rfl)
  have el : ∀ k : Fin 128, lidx_main_v29 (ix2 b q) k = ix2 b k := fun k =>
    funext fun c => Fin.ext (by match c with | ⟨0, _⟩ => rfl | ⟨1, _⟩ => rfl)
  have er : ∀ k : Fin 128, idx_main_v28 (ridx_main_v29 (ix2 b q) k) = ix2 q k := fun k =>
    funext fun c => Fin.ext (by match c with | ⟨0, _⟩ => rfl | ⟨1, _⟩ => rfl)
  rw [val_main_v35_apply, val_main_v34_apply, val_main_v32_apply, val_main_v27_apply, val_main_v25_apply, val_main_v21_apply,
    val_main_v20_apply, val_main_v26_apply, val_main_v24_apply, val_main_v23_apply, val_main_v31_apply, val_main_v30_apply,
    val_main_v29_apply, val_main_v33_apply]
  simp only [val_main_v19_apply, val_main_v22_apply, val_main_v28_apply, val_main_cst_4_apply, val_main_cst_5_apply,
    val_main_cst_6_apply, val_main_cst_7_apply, e20, e23, el, er, Ideal.hostUnary_sqrt_def, Ideal.maximumf_def, Ideal.subf_def,
    Ideal.addf_def, Ideal.mulf_def, Ideal.ofBits_def]
  unfold Cert.Spec.sqd Cert.Spec.sqn Cert.Spec.dot
  rw [Ideal.ofBits_zero_f32, zero_add, zero_add]

/-- The least value of a family over the indices of a rank-two array, from `c`, is the least over the rows of the
    least over the columns, each from `c`: both are the greatest lower bound of `c` and every member. -/
theorem fold_min_idx2 {n0 n1 : Nat} (c : EReal) (f : (⟨2, ![n0, n1]⟩ : Shape).Idx → EReal) :
    (Finset.univ : Finset (⟨2, ![n0, n1]⟩ : Shape).Idx).fold min c f
      = (Finset.univ : Finset (Fin n0)).fold min c fun r => (Finset.univ : Finset (Fin n1)).fold min c fun q => f (ix2 r q) := by
  apply le_antisymm
  · refine (Finset.le_fold_min _).2 ⟨(Finset.fold_min_le _).2 (Or.inl le_rfl), fun r _ => ?_⟩
    refine (Finset.le_fold_min _).2 ⟨(Finset.fold_min_le _).2 (Or.inl le_rfl), fun q _ => ?_⟩
    exact (Finset.fold_min_le _).2 (Or.inr ⟨ix2 r q, Finset.mem_univ _, le_rfl⟩)
  · refine (Finset.le_fold_min _).2 ⟨(Finset.fold_min_le _).2 (Or.inl le_rfl), fun i _ => ?_⟩
    refine (Finset.fold_min_le _).2 (Or.inr ⟨i 0, Finset.mem_univ _, ?_⟩)
    refine (Finset.fold_min_le _).2 (Or.inr ⟨i 1, Finset.mem_univ _, ?_⟩)
    exact le_of_eq (congrArg f (eq_ix2 i).symm)

/-- The hardest positive of anchor `b`: the row maximum of the positive distances. -/
theorem pos_apply (a p : FVec Ideal S2048x128 .f32) (b : Fin 2048) :
    val_main_v17 (F := Ideal) a p (ix1 b) = Cert.Spec.rowMax a p b := by
  have h : S2048x2048.Reduces [1] S2048 := by decide
  have hl : ∀ q : Fin 2048, h.lift (ix1 b) q = ix2 b q := fun q =>
    funext fun c => Fin.ext (by match c with | ⟨0, _⟩ => rfl | ⟨1, _⟩ => rfl)
  unfold val_main_v17
  rw [Host.reduce_eq_fold_single FloatOps.maximumf _ _ reducesTo_S2048x2048_S2048_d1 h h_S_]
  unfold Cert.Spec.rowMax
  show (Finset.univ : Finset (Fin 2048)).fold max Cert.Spec.negInf (fun q => val_main_v16 (F := Ideal) a p (h.lift (ix1 b) q)) = _
  refine Finset.fold_congr fun q _ => ?_
  rw [hl q]
  exact dist_pos a p b q

/-- The hardest negative: the least of the negative distances over every anchor and every row of the negatives. -/
theorem neg_apply (a : FVec Ideal S2048x128 .f32) (n3 : FVec Ideal S2048x16x128 .f32) :
    val_main_v36 (F := Ideal) a n3 ix0 = Cert.Spec.allMinRoot a (val_main_v18 (F := Ideal) n3) := by
  unfold val_main_v36
  rw [Host.reduce_eq_fold, Finset.filter_true_of_mem (fun i _ => funext fun c => c.elim0)]
  unfold Cert.Spec.allMinRoot
  show (Finset.univ : Finset (⟨2, ![2048, 32768]⟩ : Shape).Idx).fold min Cert.Spec.posInf (val_main_v35 (F := Ideal) a n3) = _
  rw [fold_min_idx2]
  exact Finset.fold_congr fun r _ => Finset.fold_congr fun q _ => dist_neg a n3 r q

/-- After the two reductions the reference is the shared tail of them. -/
theorem result_eq (a p : FVec Ideal S2048x128 .f32) (n3 : FVec Ideal S2048x16x128 .f32) :
    val_main_v43 (F := Ideal) a p n3
      = Cert.Tail.tail (val_main_v17 (F := Ideal) a p) (val_main_v36 (F := Ideal) a n3) := by
  unfold val_main_v43 val_main_v42 val_main_v41 val_main_v40 val_main_v39 val_main_v38 val_main_v37 val_main_call0_v0
    val_main_call0_cst val_main_cst_9 val_main_cst_10 val_main_cst_11 Cert.Tail.tail
  rfl

end Cert.RefValue

end
-- ==== Proof.KI.Result.lean ====
/-
  The idealized kernel's result through the host tail, on the extended reals, joined to the reference's.

  After the second pallas_call the program reshapes the first call's result (a column of 2048 hardest positives) to a
  vector and the second's (the one least clamped squared distance) to a scalar, takes the root of the scalar, and runs
  the tail both programs share: the hinge of every anchor and their mean. Read off the buffers between the items, the
  program's result is that tail of the two reshapes. Entry `b` of the first is the largest distance from anchor `b`
  to a positive, which is the reference's row maximum; the root of the second is the root of a least value, which is
  the least root, the reference's minimum over every pair. So the result is the tail of the reference's two reductions.
-/
import proofs.«110653_j89103391523252_1_alg».proof.Proof.Gen.KernelIdeal.Regions
import proofs.«110653_j89103391523252_1_alg».proof.Proof.KI.Outs
import proofs.«110653_j89103391523252_1_alg».proof.Proof.KI.Value0
import proofs.«110653_j89103391523252_1_alg».proof.Proof.KI.Value1
import proofs.«110653_j89103391523252_1_alg».proof.Proof.RefValue
import proofs.«110653_j89103391523252_1_alg».proof.Proof.Tail
import Idealize.ShloMosaic.Lib.StableHlo.Run
import Idealize.ShloMosaic.Lib.Pipeline.Value
import Idealize.ShloMosaic.Lib.ValueIdx

noncomputable section

namespace Cert.KernelIdeal.Result

open Cert.KernelIdeal Cert.KernelIdeal.Gen Cert.KernelIdeal.Hand Idealize.ShloMosaic Idealize.ShloMosaic.ValueIdx
open Idealize.ShloMosaic.TcCoe Idealize.SL.Sem

variable (m : (ℓ : Loc nD τ sig) → Buf (Elt Ideal) ℓ)

/-! ## Two reshapes at an index -/

/-- A column cast to a vector reads, at `i`, the column at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A one-by-one matrix cast to a scalar reads its one entry. -/
theorem shapeCast_11_scalar_apply {α : Type} (x : (⟨2, ![1, 1]⟩ : Shape).Idx → α) (h : (⟨2, ![1, 1]⟩ : Shape).ShapeCasts ⟨0, ![]⟩) :
    shapeCast ⟨0, ![]⟩ x h ix0 = x (ix2 (0 : Fin 1) (0 : Fin 1)) :=
  shapeCast_apply x h _ _ (by
    rw [Shape.rowMajor_val_two]
    have := ((⟨0, ![]⟩ : Shape).rowMajor ix0).isLt
    show 0 * 1 + 0 = _
    have h1 : (⟨0, ![]⟩ : Shape).numel = 1 := by decide
    omega)

/-! ## The two results as the tail takes them -/

/-- The first call's result array as a vector of 2048: the reshape the program prints. -/
abbrev dpos (c : Dev nD) : FVec Ideal S2048 .f32 := shapeCast S2048 (o2 m c) shapeCasts_S2048x1_S2048

/-- The second call's result array as a scalar: the reshape the program prints. -/
abbrev dnegSq (c : Dev nD) : FVec Ideal S_ .f32 := shapeCast S_ (o4 m c) shapeCasts_S1x1_S_

/-- THE PROGRAM'S RESULT is the shared tail of the first call's result, reshaped, and of the root of the second's,
    reshaped: the three host stretches after the second call, read off the buffers between the items. -/
theorem tail_read (c : Dev nD) :
    V7 m (outs m) c main_v12 = Cert.Tail.tail (dpos m c) (Host.sqrt (F := Ideal) (dnegSq m c)) := by
  have h3 : V4 m (outs m) c main_v3 = o4 m c := by
    simp only [V4, Function.update_self, outs_v3]
  have h1 : V2 m (outs m) c main_v1 = o2 m c := by
    simp only [V2, Function.update_self, outs_v1]
  have h2 : V4 m (outs m) c main_v2 = dpos m c := by
    rw [V4_of m (outs m) c main_v2 (by decide)]
    show StableHlo.after hostOps1 (V2 m (outs m) c) (Proc.devRef .tc main_v2) = _
    after_results
    rw [h1]
    rfl
  show StableHlo.after hostOps2_2 (V6 m (outs m) c) (Proc.devRef .tc main_v12) = _
  after_results
  rw [h2, h3]
  unfold Cert.Tail.tail
  rfl

/-! ## The first call's result is the reference's hardest positives -/

theorem entry_arg0 (c : Dev nD) : X1 m c main_arg0 = m ((c : Thread nD τ).loc main_arg0) :=
  (V1_of m c main_arg0 (by decide)).trans rfl
theorem entry_arg1 (c : Dev nD) : X1 m c main_arg1 = m ((c : Thread nD τ).loc main_arg1) :=
  (V1_of m c main_arg1 (by decide)).trans rfl

theorem pos_eq (c : Dev nD) :
    dpos m c = Cert.ReferenceIdeal.Read.val_main_v17 (F := Ideal) (m ((c : Thread nD τ).loc main_arg0)) (m ((c : Thread nD τ).loc main_arg1)) := by
  funext j
  obtain ⟨b, rfl⟩ : ∃ b : Fin 2048, j = ix1 b := ⟨j 0, eq_ix1 j⟩
  refine (shapeCast_a1_a_apply _ _ b).trans ?_
  refine (Cert.KernelIdeal.Value0.dpos_apply (X1 m) c b).trans ?_
  rw [entry_arg0, entry_arg1]
  exact (Cert.RefValue.pos_apply _ _ b).symm

/-! ## The root of the second call's result is the reference's hardest negative -/

theorem entry2_arg0 (c : Dev nD) : X3 m c main_arg0 = m ((c : Thread nD τ).loc main_arg0) :=
  (V3_of m (outsA m) c main_arg0 (by decide)).trans <| (V2_of m (outsA m) c main_arg0 (by decide)).trans <|
    (V1_of m c main_arg0 (by decide)).trans rfl

/-- The negatives laid out as 32768 rows, as the second call finds them, are the reference's reshape of the third
    argument. -/
theorem entry2_v0 (c : Dev nD) :
    X3 m c main_v0 = Cert.ReferenceIdeal.Read.val_main_v18 (F := Ideal) (m ((c : Thread nD τ).loc main_arg2)) := by
  refine (V3_of m (outsA m) c main_v0 (by decide)).trans <| (V2_of m (outsA m) c main_v0 (by decide)).trans ?_
  show StableHlo.after hostOps0 (V0 m c) (Proc.devRef .tc main_v0) = _
  after_results
  unfold Cert.ReferenceIdeal.Read.val_main_v18
  rfl

/-- The host's square root of a vector reads, at an index, the extended reals' root of the entry. -/
theorem hostSqrt_apply {s : Shape} {φ : FTy} (v : FVec Ideal s φ) (i : s.Idx) : Host.sqrt (F := Ideal) v i = Ideal.sqrt (v i) := rfl

/-- The second call's result, as a scalar, is the least clamped squared distance over every anchor and every row of
    the reference's reshape of the negatives. -/
theorem neg_entry (c : Dev nD) :
    dnegSq m c ix0 = Cert.Spec.allMin (m ((c : Thread nD τ).loc main_arg0) : Cert.Spec.Mat 2048)
      (Cert.ReferenceIdeal.Read.val_main_v18 (F := Ideal) (m ((c : Thread nD τ).loc main_arg2)) : Cert.Spec.Mat 32768) := by
  refine (shapeCast_11_scalar_apply (o4 m c) shapeCasts_S1x1_S_).trans ?_
  refine (Cert.KernelIdeal.Value1.dneg_apply (X3 m) c).trans ?_
  rw [entry2_arg0, entry2_v0]

/-- The root of a value known to be the least clamped squared distance is the least distance. -/
theorem sqrt_of_allMin {R C : ℕ} {x : EReal} (a : Cert.Spec.Mat R) (n : Cert.Spec.Mat C) (h : x = Cert.Spec.allMin a n) :
    Ideal.sqrt x = Cert.Spec.allMinRoot a n := by
  rw [h, Cert.Spec.sqrt_allMin]

theorem neg_eq (c : Dev nD) :
    Host.sqrt (F := Ideal) (dnegSq m c)
      = Cert.ReferenceIdeal.Read.val_main_v36 (F := Ideal) (m ((c : Thread nD τ).loc main_arg0)) (m ((c : Thread nD τ).loc main_arg2)) := by
  funext j
  obtain rfl : j = ix0 := eq_ix0 j
  refine (hostSqrt_apply (dnegSq m c) ix0).trans ?_
  refine (sqrt_of_allMin _ _ (neg_entry m c)).trans ?_
  exact (Cert.RefValue.neg_apply _ _).symm

/-! ## The result -/

/-- THE IDEALIZED KERNEL'S RESULT is the shared tail of the reference's two reductions. -/
theorem result_eq (c : Dev nD) :
    V7 m (outs m) c main_v12
      = Cert.Tail.tail (Cert.ReferenceIdeal.Read.val_main_v17 (F := Ideal) (m ((c : Thread nD τ).loc main_arg0)) (m ((c : Thread nD τ).loc main_arg1)))
          (Cert.ReferenceIdeal.Read.val_main_v36 (F := Ideal) (m ((c : Thread nD τ).loc main_arg0)) (m ((c : Thread nD τ).loc main_arg2))) := by
  rw [tail_read, pos_eq, neg_eq]

end Cert.KernelIdeal.Result

end
-- ==== Proof.lean ====
/-
  The hard-batched triplet loss: a Pallas kernel in two calls against its jnp reference.

  Both programs compute, from 2048 anchors `a`, 2048 positives `p` and 2048 × 16 negatives `n` (rows of 128),
  the mean over the anchors `b` of `max (d⁺ b − d⁻ + ¼) 0`, where with the clamped squared distance
  `sq x y = max (|x|² + |y|² − 2⟨x, y⟩) 0` the hardest positive is `d⁺ b = max_q √(sq a_b p_q)` and the hardest
  negative `d⁻` is the least distance over every pair of an anchor and a negative.

  The kernel's first call computes `d⁺` 512 anchors at a time. Its second call walks 8 × 4 tiles of 4096 negatives by
  512 anchors, keeps the least CLAMPED SQUARED distance seen so far in a one-entry result block (the first tile stores,
  every later tile takes the smaller), and the host takes the root once, after the call; the reference takes the root
  of every entry and then the minimum. On the extended reals the root is monotone and fixes `+∞`, so the root of the
  least value is the least root; a minimum over all pairs may be gathered tile by tile in any order; a matrix product
  into a zero accumulator is the host's dot product, and a change of float format is the identity. With these the two
  programs' results are one function of the arguments; no finiteness of the inputs is used.

  The frames: each call's body is run symbolically on whole staging buffers (the second call once per control case),
  the contents its result block carries from point to point are a recursion on the point, and the program's frame is
  the generated conditional frame at the two calls' records. The reference is a host program; its run is generated.
-/
import proofs.«110653_j89103391523252_1_alg».proof.Defs
import proofs.«110653_j89103391523252_1_alg».proof.Proof.Gen.Kernel
import proofs.«110653_j89103391523252_1_alg».proof.Proof.Gen.KernelIdeal
import proofs.«110653_j89103391523252_1_alg».proof.Proof.Gen.ReferenceIdeal
import proofs.«110653_j89103391523252_1_alg».proof.Proof.Gen.Pre_finite_inputs
import proofs.«110653_j89103391523252_1_alg».proof.Proof.Gen.ReferenceIdeal.Run
import proofs.«110653_j89103391523252_1_alg».proof.Proof.Gen.ReferenceIdeal.Read
import proofs.«110653_j89103391523252_1_alg».proof.Proof.K.Run
import proofs.«110653_j89103391523252_1_alg».proof.Proof.KI.Run
import proofs.«110653_j89103391523252_1_alg».proof.Proof.KI.RunAll
import proofs.«110653_j89103391523252_1_alg».proof.Proof.KI.Result
import proofs.«110653_j89103391523252_1_alg».proof.Proof.RefValue
import proofs.«110653_j89103391523252_1_alg».proof.Proof.Tail
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is a host program: its generated run, the result dropped. -/
theorem frame_r : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the mean hinge of the reference's hardest
    positives and hardest negative: the kernel's run names its result as the host tail of what its two calls leave,
    which is that value; the reference's generated run names its result stage by stage. -/
theorem algebraic : Cert.algebraic_KernelIdeal_ReferenceIdeal := by
  intro m ρ m' ρ' _ hagree
  refine ⟨fun c => Cert.Tail.tail
      (Cert.ReferenceIdeal.Read.val_main_v17 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (Cert.ReferenceIdeal.Read.val_main_v36 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))), ?_, ?_⟩
  · exact (θ_run Cert.KernelIdeal.defs _ _).mono
      (fun r h c => ⟨(h c).1.trans (Cert.KernelIdeal.Result.result_eq m c), (h c).2⟩)
      (Cert.KernelIdeal.Hand.run_all (F := Ideal) m ρ)
  · refine (θ_run Cert.ReferenceIdeal.defs _ _).mono (fun r h c => ⟨?_, (h c).2⟩)
      (Cert.ReferenceIdeal.Value.run (F := Ideal) m' ρ')
    refine ((h c).1.trans (Cert.ReferenceIdeal.Read.val_main_v43_eq (F := Ideal) _ _ _)).trans
      ((Cert.RefValue.result_eq _ _ _).trans ?_)
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
